-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S8192x1024 : Shape := ⟨2, ![8192, 1024]⟩
abbrev S128x8192x128 : Shape := ⟨3, ![128, 8192, 128]⟩
abbrev S1024x1152 : Shape := ⟨2, ![1024, 1152]⟩

class Facts : Prop where
  reducesTo_S_S_d : S_.ReducesTo [] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S128x8192x128 : S_.BroadcastsInDim S128x8192x128 (![] : Fin 0 → Fin S128x8192x128.rank)
  reducesTo_S128x8192x128_S_d0_1_2 : S128x8192x128.ReducesTo [0, 1, 2] S_
  bcast_S_S1024x1152 : S_.BroadcastsInDim S1024x1152 (![] : Fin 0 → Fin S1024x1152.rank)
  reducesTo_S1024x1152_S_d0_1 : S1024x1152.ReducesTo [0, 1] S_

variable [Facts]

def fn_part1 {F : FTy → Type} [FloatOps F] (main_arg4 : FVec F S1024x1152 .f32) (main_arg5 : FVec F S1024x1152 .f32) (main_v12 : IVec S_ 1) (main_v15 : IVec S1024x1152 1) (main_c_5 : IVec S_ 1) : IVec S_ 1 :=
  let main_v16 : IVec S_ 1 := (fun x v => Host.reduce IntOp.andi x v reducesTo_S1024x1152_S_d0_1 h_S_) main_v15 main_c_5
  let main_v17 : IVec S_ 1 := andi main_v12 main_v16
  let main_v18 : FVec F S1024x1152 .f32 := Host.absf main_arg4
  let main_cst_6 : FVec F S_ .f32 := constant S_ .f32 0x7F800000#32
  let main_v19 : FVec F S1024x1152 .f32 := broadcastInDim S1024x1152 ![] bcast_S_S1024x1152 main_cst_6
  let main_v20 : IVec S1024x1152 1 := cmpf .olt main_v18 main_v19
  let main_c_7 : IVec S_ 1 := constantI S_ 1 1#1
  let main_v21 : IVec S_ 1 := (fun x v => Host.reduce IntOp.andi x v reducesTo_S1024x1152_S_d0_1 h_S_) main_v20 main_c_7
  let main_v22 : IVec S_ 1 := andi main_v17 main_v21
  let main_v23 : FVec F S1024x1152 .f32 := Host.absf main_arg5
  let main_cst_8 : FVec F S_ .f32 := constant S_ .f32 0x7F800000#32
  let main_v24 : FVec F S1024x1152 .f32 := broadcastInDim S1024x1152 ![] bcast_S_S1024x1152 main_cst_8
  let main_v25 : IVec S1024x1152 1 := cmpf .olt main_v23 main_v24
  let main_c_9 : IVec S_ 1 := constantI S_ 1 1#1
  let main_v26 : IVec S_ 1 := (fun x v => Host.reduce IntOp.andi x v reducesTo_S1024x1152_S_d0_1 h_S_) main_v25 main_c_9
  let main_v27 : IVec S_ 1 := andi main_v22 main_v26
  main_v27

def fn {F : FTy → Type} [FloatOps F] (main_arg0 : FVec F S_ .f32) (main_arg1 : FVec F S8192x1024 .f32) (main_arg2 : FVec F S128x8192x128 .f32) (main_arg3 : FVec F S1024x1152 .f32) (main_arg4 : FVec F S1024x1152 .f32) (main_arg5 : FVec F S1024x1152 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_c_1 : IVec S_ 1 := constantI S_ 1 1#1
  let main_v6 : IVec S_ 1 := (fun x v => Host.reduce IntOp.andi x v reducesTo_S8192x1024_S_d0_1 h_S_) main_v5 main_c_1
  let main_v7 : IVec S_ 1 := andi main_v2 main_v6
  let main_v8 : FVec F S128x8192x128 .f32 := Host.absf main_arg2
  let main_cst_2 : FVec F S_ .f32 := constant S_ .f32 0x7F800000#32
  let main_v9 : FVec F S128x8192x128 .f32 := broadcastInDim S128x8192x128 ![] bcast_S_S128x8192x128 main_cst_2
  let main_v10 : IVec S128x8192x128 1 := cmpf .olt main_v8 main_v9
  let main_c_3 : IVec S_ 1 := constantI S_ 1 1#1
  let main_v11 : IVec S_ 1 := (fun x v => Host.reduce IntOp.andi x v reducesTo_S128x8192x128_S_d0_1_2 h_S_) main_v10 main_c_3
  let main_v12 : IVec S_ 1 := andi main_v7 main_v11
  let main_v13 : FVec F S1024x1152 .f32 := Host.absf main_arg3
  let main_cst_4 : FVec F S_ .f32 := constant S_ .f32 0x7F800000#32
  let main_v14 : FVec F S1024x1152 .f32 := broadcastInDim S1024x1152 ![] bcast_S_S1024x1152 main_cst_4
  let main_v15 : IVec S1024x1152 1 := cmpf .olt main_v13 main_v14
  let main_c_5 : IVec S_ 1 := constantI S_ 1 1#1
  fn_part1 (F := F) main_arg4 main_arg5 main_v12 main_v15 main_c_5
-- ==== Kernel.lean ====
abbrev S_ : Shape := ⟨0, ![]⟩
abbrev S8192x1024 : Shape := ⟨2, ![8192, 1024]⟩
abbrev S128x8192x128 : Shape := ⟨3, ![128, 8192, 128]⟩
abbrev S1024x1152 : Shape := ⟨2, ![1024, 1152]⟩
abbrev S1 : Shape := ⟨1, ![1]⟩
abbrev S1024x128 : Shape := ⟨2, ![1024, 128]⟩
abbrev S1024x1024 : Shape := ⟨2, ![1024, 1024]⟩
abbrev S1x256x128 : Shape := ⟨3, ![1, 256, 128]⟩
abbrev S256x1024 : Shape := ⟨2, ![256, 1024]⟩
abbrev S256x128 : Shape := ⟨2, ![256, 128]⟩

abbrev nBuf : Space → Nat
  | .hbm => 26
  | .vmem => 12
  | .smem => 1
  | _ => 0

abbrev bufTy : (tb : Table) → Fin (tcTables nBuf tb) → BufTy
  | .hbm, ⟨0, _⟩ => ⟨S_, .f32⟩
  | .hbm, ⟨1, _⟩ => ⟨S8192x1024, .f32⟩
  | .hbm, ⟨2, _⟩ => ⟨S128x8192x128, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1024x128, .f32⟩
  | .hbm, ⟨14, _⟩ => ⟨S1024x128, .bf16⟩
  | .hbm, ⟨15, _⟩ => ⟨S1024x1024, .f32⟩
  | .hbm, ⟨16, _⟩ => ⟨S1024x1024, .bf16⟩
  | .hbm, ⟨17, _⟩ => ⟨S1024x128, .f32⟩
  | .hbm, ⟨18, _⟩ => ⟨S1024x128, .bf16⟩
  | .hbm, ⟨19, _⟩ => ⟨S1024x1024, .f32⟩
  | .hbm, ⟨20, _⟩ => ⟨S1024x1024, .bf16⟩
  | .hbm, ⟨21, _⟩ => ⟨S1024x128, .f32⟩
  | .hbm, ⟨22, _⟩ => ⟨S1024x128, .bf16⟩
  | .hbm, ⟨23, _⟩ => ⟨S1024x1024, .f32⟩
  | .hbm, ⟨24, _⟩ => ⟨S1024x1024, .bf16⟩
  | .hbm, ⟨25, _⟩ => ⟨S8192x1024, .f32⟩
  | .local _ .vmem, ⟨0, _⟩ => ⟨S1x256x128, .f32⟩
  | .local _ .vmem, ⟨1, _⟩ => ⟨S1x256x128, .f32⟩
  | .local _ .vmem, ⟨2, _⟩ => ⟨S256x1024, .f32⟩
  | .local _ .vmem, ⟨3, _⟩ => ⟨S256x1024, .f32⟩
  | .local _ .vmem, ⟨4, _⟩ => ⟨S1024x128, .bf16⟩
  | .local _ .vmem, ⟨5, _⟩ => ⟨S1024x1024, .bf16⟩
  | .local _ .vmem, ⟨6, _⟩ => ⟨S1024x128, .bf16⟩
  | .local _ .vmem, ⟨7, _⟩ => ⟨S1024x1024, .bf16⟩
  | .local _ .vmem, ⟨8, _⟩ => ⟨S1024x128, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .smem, ⟨0, _⟩ => ⟨S1, .i32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S_S1 : S_.ShapeCasts S1
  slices_S1024x1152_S1024x128_0_0 : S1024x1152.Slices ![0, 0] S1024x128
  bitsLt_bf16_f32 : FTy.bits .bf16 < FTy.bits .f32
  slices_S1024x1152_S1024x1024_0_128 : S1024x1152.Slices ![0, 128] S1024x1024
  inb_S1_S1_0 : ∀ a, (![0] : Fin 1 → Nat) a + S1.size a ≤ S1.size a
  numel1_S1 : S1.numel = 1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S256x1024_S256x1024_0_0 : ∀ a, (![0, 0] : Fin 2 → Nat) a + S256x1024.size a ≤ S256x1024.size a
  h_S256x1024 : 0 < S256x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S256x128_S1024x128_S256x1024_1_1_0_0_n_n_wf : DotDims.WF S256x128 S1024x128 S256x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .bf16 = 32 ∨ (Rect.block (s := S1024x128) S1024x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev spec0_0 : Pipeline.WinSpec sig grid0.rank :=
  Pipeline.WinSpec.ofSpec (Memref.whole main_arg2) S1x256x128.size reads0_0 false false 2 stage0_0 sem0_0 nbuf0_0 hstage0_0

abbrev spec0_1 : Pipeline.WinSpec sig grid0.rank :=
  Pipeline.WinSpec.ofSpec (Memref.whole main_arg1) S256x1024.size reads0_1 false false 2 stage0_1 sem0_1 nbuf0_1 hstage0_1

abbrev spec0_2 : Pipeline.WinSpec sig grid0.rank :=
  Pipeline.WinSpec.ofSpec (Memref.whole main_v4) S1024x128.size reads0_2 false true 1 stage0_2 sem0_2 nbuf0_2 hstage0_2

abbrev spec0_3 : Pipeline.WinSpec sig grid0.rank :=
  Pipeline.WinSpec.ofSpec (Memref.whole main_v6) S1024x1024.size reads0_3 false true 1 stage0_3 sem0_3 nbuf0_3 hstage0_3

abbrev spec0_4 : Pipeline.WinSpec sig grid0.rank :=
  Pipeline.WinSpec.ofSpec (Memref.whole main_v8) S1024x128.size reads0_4 false true 1 stage0_4 sem0_4 nbuf0_4 hstage0_4

abbrev spec0_5 : Pipeline.WinSpec sig grid0.rank :=
  Pipeline.WinSpec.ofSpec (Memref.whole main_v10) S1024x1024.size reads0_5 false true 1 stage0_5 sem0_5 nbuf0_5 hstage0_5

abbrev spec0_6 : Pipeline.WinSpec sig grid0.rank :=
  Pipeline.WinSpec.ofSpec (Memref.whole main_v12) S1024x128.size reads0_6 false true 1 stage0_6 sem0_6 nbuf0_6 hstage0_6

abbrev spec0_7 : Pipeline.WinSpec sig grid0.rank :=
  Pipeline.WinSpec.ofSpec (Memref.whole main_v14) S1024x1024.size reads0_7 false true 1 stage0_7 sem0_7 nbuf0_7 hstage0_7

abbrev spec0_8 : Pipeline.WinSpec sig grid0.rank :=
  Pipeline.WinSpec.ofSpec (Memref.whole main_v15) S256x1024.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x256x128.size a ≤ S128x8192x128.size a), EltTy.bits .f32 = 32 ∨ (Rect.block (s := S128x8192x128) S1x256x128.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S_ : Shape := ⟨0, ![]⟩
abbrev S8192x1024 : Shape := ⟨2, ![8192, 1024]⟩
abbrev S128x8192x128 : Shape := ⟨3, ![128, 8192, 128]⟩
abbrev S1024x1152 : Shape := ⟨2, ![1024, 1152]⟩
abbrev S1x8192x128 : Shape := ⟨3, ![1, 8192, 128]⟩
abbrev S8192x128 : Shape := ⟨2, ![8192, 128]⟩
abbrev S8192x1152 : Shape := ⟨2, ![8192, 1152]⟩
abbrev S1152x1024 : Shape := ⟨2, ![1152, 1024]⟩

abbrev nBuf : Space → Nat
  | .hbm => 67
  | .vmem => 0
  | .smem => 0
  | _ => 0

abbrev bufTy : (tb : Table) → Fin (tcTables nBuf tb) → BufTy
  | .hbm, ⟨0, _⟩ => ⟨S_, .f32⟩
  | .hbm, ⟨1, _⟩ => ⟨S8192x1024, .f32⟩
  | .hbm, ⟨2, _⟩ => ⟨S128x8192x128, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x8192x128, .f32⟩
  | .hbm, ⟨35, _⟩ => ⟨S8192x128, .f32⟩
  | .hbm, ⟨36, _⟩ => ⟨S8192x1152, .f32⟩
  | .hbm, ⟨37, _⟩ => ⟨S1152x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S1152x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1152, .f32⟩
  | .hbm, ⟨59, _⟩ => ⟨S1152x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_c_3 : Ref sig .tc := ⟨.hbm, 18, rfl⟩
abbrev main_c_4 : Ref sig .tc := ⟨.hbm, 19, rfl⟩
abbrev main_v5 : Ref sig .tc := ⟨.hbm, 20, rfl⟩
abbrev main_c_5 : Ref sig .tc := ⟨.hbm, 21, rfl⟩
abbrev main_c_6 : Ref sig .tc := ⟨.hbm, 22, rfl⟩
abbrev main_v6 : Ref sig .tc := ⟨.hbm, 23, rfl⟩
abbrev main_c_7 : Ref sig .tc := ⟨.hbm, 24, rfl⟩
abbrev main_v7 : Ref sig .tc := ⟨.hbm, 25, rfl⟩
abbrev main_c_8 : Ref sig .tc := ⟨.hbm, 26, rfl⟩
abbrev main_c_9 : Ref sig .tc := ⟨.hbm, 27, rfl⟩
abbrev main_v8 : Ref sig .tc := ⟨.hbm, 28, rfl⟩
abbrev main_c_10 : Ref sig .tc := ⟨.hbm, 29, rfl⟩
abbrev main_c_11 : Ref sig .tc := ⟨.hbm, 30, rfl⟩
abbrev main_v9 : Ref sig .tc := ⟨.hbm, 31, rfl⟩
abbrev main_c_12 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_cst_13 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_14 : Ref sig .tc := ⟨.hbm, 51, rfl⟩
abbrev main_v26 : Ref sig .tc := ⟨.hbm, 52, rfl⟩
abbrev main_v27 : Ref sig .tc := ⟨.hbm, 53, rfl⟩
abbrev main_cst_15 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_16 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]

class Facts₀ : Prop where
  sliceFits_S128x8192x128_S1x8192x128 : S128x8192x128.Slices (fun _ => 0) S1x8192x128
  h_S_ : 0 < S_.numel
  shapeCasts_S1x8192x128_S8192x128 : S1x8192x128.ShapeCasts S8192x128
  concatenates_S8192x128_S8192x1024_S8192x1152_d1 : Shape.Concatenates [S8192x128, S8192x1024] S8192x1152 1
  transposes_S1024x1152_S1152x1024_1_0 : S1024x1152.Transposes [1, 0] S1152x1024
  bcast_S_S8192x1024 : S_.BroadcastsInDim S8192x1024 (![] : Fin 0 → Fin S8192x1024.rank)
  dot_S8192x1152_S1152x1024_S8192x1024_1_0_0_1_n_n_wf : DotDims.WF S8192x1152 S1152x1024 S8192x1024 [1] [0] [0] [1] [] []

variable [Facts₀]

def dot_S8192x1152_S1152x1024_S8192x1024_1_0_0_1_n_n : DotDims S8192x1152 S1152x1024 S8192x1024 where
  lhsContracting := [1]
  rhsContracting := [0]
  lhsNonContracting := [0]
  rhsNonContracting := [1]
  lhsBatch := []
  rhsBatch := []
  wf := dot_S8192x1152_S1152x1024_S8192x1024_1_0_0_1_n_n_wf

class Facts : Prop extends Facts₀ where

variable [Facts]
-- ==== Proof.RefRun.lean ====
/-
  The reference's run, read back in five stretches. The reference is a straight line of 61 host operations: twenty-eight that
  compute the time index, two that cut the time slice out of the coefficient array and reshape it to 8192 × 128, eleven
  for the reset gate, ten for the update gate, ten for the candidate and the result. Every weakly fair execution runs
  them in order, and what a buffer holds afterwards is the fold of the operations' results over the launch contents.
  The fold over a concatenation of lists is the fold over the second from the fold over the first, so each stretch is
  read from WHATEVER the buffers hold when it starts, given only the few buffers it reads: the time slice and the
  arguments for the gates, the gates for the result. Each operation's value is the stage function of the same name.
-/
import proofs.«105870_j36584531427600_1_alg».proof.Proof.Gen.ReferenceIdeal
import proofs.«105870_j36584531427600_1_alg».proof.Proof.RefStages
import Idealize.ShloMosaic.Lib.StableHlo.Run

noncomputable section

namespace Cert.ReferenceIdeal.StageRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The time index and the two zero starts: operations 1 to 28. -/
abbrev opsA : List (HloOp τ sig (Elt F)) :=
  [ unary main_arg0 main_v0 (fptosi 32 : (⟨S_, .f32⟩ : BufTy).Contents (Elt F) → (⟨S_, .i32⟩ : BufTy).Contents (Elt F)),
    nullary main_c (constantI S_ 32 0#32),
    nullary main_c_0 (constantI S_ 32 127#32),
    TRef.unary (TRef.of (T := ⟨S_, .i32⟩) main_c) (TRef.of (T := ⟨S_, .i32⟩) main_call0_v0) id,
    TRef.binary (TRef.of (T := ⟨S_, .i32⟩) main_call0_v0) (TRef.of (T := ⟨S_, .i32⟩) main_v0) (TRef.of (T := ⟨S_, .i32⟩) main_call0_v1) maxsi,
    TRef.unary (TRef.of (T := ⟨S_, .i32⟩) main_c_0) (TRef.of (T := ⟨S_, .i32⟩) main_call0_v2) id,
    TRef.binary (TRef.of (T := ⟨S_, .i32⟩) main_call0_v2) (TRef.of (T := ⟨S_, .i32⟩) main_call0_v1) (TRef.of (T := ⟨S_, .i32⟩) main_v1) minsi,
    nullary main_c_1 (constantI S_ 32 0#32),
    binary main_v1 main_c_1 main_v2 (cmpi .slt : (⟨S_, .i32⟩ : BufTy).Contents (Elt F) → (⟨S_, .i32⟩ : BufTy).Contents (Elt F) → (⟨S_, .i1⟩ : BufTy).Contents (Elt F)),
    nullary main_c_2 (constantI S_ 32 128#32),
    binary main_v1 main_c_2 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_3 (constantI S_ 32 0#32),
    nullary main_c_4 (constantI S_ 32 0#32),
    binary main_c_3 main_c_4 main_v5 (cmpi .slt : (⟨S_, .i32⟩ : BufTy).Contents (Elt F) → (⟨S_, .i32⟩ : BufTy).Contents (Elt F) → (⟨S_, .i1⟩ : BufTy).Contents (Elt F)),
    nullary main_c_5 (constantI S_ 32 0#32),
    nullary main_c_6 (constantI S_ 32 8192#32),
    binary main_c_5 main_c_6 main_v6 (addi : (⟨S_, .i32⟩ : BufTy).Contents (Elt F) → (⟨S_, .i32⟩ : BufTy).Contents (Elt F) → (⟨S_, .i32⟩ : BufTy).Contents (Elt F)),
    nullary main_c_7 (constantI S_ 32 0#32),
    ternary main_v5 main_v6 main_c_7 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    nullary main_c_9 (constantI S_ 32 0#32),
    binary main_c_8 main_c_9 main_v8 (cmpi .slt : (⟨S_, .i32⟩ : BufTy).Contents (Elt F) → (⟨S_, .i32⟩ : BufTy).Contents (Elt F) → (⟨S_, .i1⟩ : BufTy).Contents (Elt F)),
    nullary main_c_10 (constantI S_ 32 0#32),
    nullary main_c_11 (constantI S_ 32 128#32),
    binary main_c_10 main_c_11 main_v9 (addi : (⟨S_, .i32⟩ : BufTy).Contents (Elt F) → (⟨S_, .i32⟩ : BufTy).Contents (Elt F) → (⟨S_, .i32⟩ : BufTy).Contents (Elt F)),
    nullary main_c_12 (constantI S_ 32 0#32),
    ternary main_v8 main_v9 main_c_12 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The time slice, reshaped to 8192 × 128: operations 29 and 30. -/
abbrev opsS : List (HloOp τ sig (Elt F)) :=
  [ unaryIndexed main_arg2 ![main_v4, main_v7, main_v10] ⟨S_, .i32⟩ main_v11 ((fun x i => Host.dynamicSlice S1x8192x128 x (fun k => (i k (Shape.Idx.first h_S_)).toInt) sliceFits_S128x8192x128_S1x8192x128) : (⟨S128x8192x128, .f32⟩ : BufTy).Contents (Elt F) → (Fin 3 → (⟨S_, .i32⟩ : BufTy).Contents (Elt F)) → (⟨S1x8192x128, .f32⟩ : BufTy).Contents (Elt F)),
    reshape main_v11 main_v12 rfl shapeCasts_S1x8192x128_S8192x128 ]

/-- The reset gate: operations 31 to 41. -/
abbrev opsB : List (HloOp τ sig (Elt F)) :=
  [ binary main_v12 main_arg1 main_v13 ((fun a b => concatenate S8192x1152 1 [⟨S8192x128, a⟩, ⟨S8192x1024, b⟩] concatenates_S8192x128_S8192x1024_S8192x1152_d1) : (⟨S8192x128, .f32⟩ : BufTy).Contents (Elt F) → (⟨S8192x1024, .f32⟩ : BufTy).Contents (Elt F) → (⟨S8192x1152, .f32⟩ : BufTy).Contents (Elt F)),
    unary main_arg3 main_v14 ((transpose S1152x1024 [1, 0] · transposes_S1024x1152_S1152x1024_1_0) : (⟨S1024x1152, .f32⟩ : BufTy).Contents (Elt F) → (⟨S1152x1024, .f32⟩ : BufTy).Contents (Elt F)),
    binary main_v13 main_v14 main_v15 ((fun l r => Host.dotGeneral dot_S8192x1152_S1152x1024_S8192x1024_1_0_0_1_n_n none l r) : (⟨S8192x1152, .f32⟩ : BufTy).Contents (Elt F) → (⟨S1152x1024, .f32⟩ : BufTy).Contents (Elt F) → (⟨S8192x1024, .f32⟩ : BufTy).Contents (Elt F)),
    unary main_v15 main_v16 (Host.negf : (⟨S8192x1024, .f32⟩ : BufTy).Contents (Elt F) → (⟨S8192x1024, .f32⟩ : BufTy).Contents (Elt F)),
    unary main_v16 main_v17 (Host.exp : (⟨S8192x1024, .f32⟩ : BufTy).Contents (Elt F) → (⟨S8192x1024, .f32⟩ : BufTy).Contents (Elt F)),
    nullary main_cst (constant S_ .f32 0x3F800000#32),
    unary main_cst main_v18 (broadcastInDim S8192x1024 ![] bcast_S_S8192x1024 : (⟨S_, .f32⟩ : BufTy).Contents (Elt F) → (⟨S8192x1024, .f32⟩ : BufTy).Contents (Elt F)),
    binary main_v18 main_v17 main_v19 (addf : (⟨S8192x1024, .f32⟩ : BufTy).Contents (Elt F) → (⟨S8192x1024, .f32⟩ : BufTy).Contents (Elt F) → (⟨S8192x1024, .f32⟩ : BufTy).Contents (Elt F)),
    nullary main_cst_13 (constant S_ .f32 0x3F800000#32),
    unary main_cst_13 main_v20 (broadcastInDim S8192x1024 ![] bcast_S_S8192x1024 : (⟨S_, .f32⟩ : BufTy).Contents (Elt F) → (⟨S8192x1024, .f32⟩ : BufTy).Contents (Elt F)),
    binary main_v20 main_v19 main_v21 (Host.divf : (⟨S8192x1024, .f32⟩ : BufTy).Contents (Elt F) → (⟨S8192x1024, .f32⟩ : BufTy).Contents (Elt F) → (⟨S8192x1024, .f32⟩ : BufTy).Contents (Elt F)) ]

/-- The update gate: operations 42 to 51. -/
abbrev opsC : List (HloOp τ sig (Elt F)) :=
  [ unary main_arg4 main_v22 ((transpose S1152x1024 [1, 0] · transposes_S1024x1152_S1152x1024_1_0) : (⟨S1024x1152, .f32⟩ : BufTy).Contents (Elt F) → (⟨S1152x1024, .f32⟩ : BufTy).Contents (Elt F)),
    binary main_v13 main_v22 main_v23 ((fun l r => Host.dotGeneral dot_S8192x1152_S1152x1024_S8192x1024_1_0_0_1_n_n none l r) : (⟨S8192x1152, .f32⟩ : BufTy).Contents (Elt F) → (⟨S1152x1024, .f32⟩ : BufTy).Contents (Elt F) → (⟨S8192x1024, .f32⟩ : BufTy).Contents (Elt F)),
    unary main_v23 main_v24 (Host.negf : (⟨S8192x1024, .f32⟩ : BufTy).Contents (Elt F) → (⟨S8192x1024, .f32⟩ : BufTy).Contents (Elt F)),
    unary main_v24 main_v25 (Host.exp : (⟨S8192x1024, .f32⟩ : BufTy).Contents (Elt F) → (⟨S8192x1024, .f32⟩ : BufTy).Contents (Elt F)),
    nullary main_cst_14 (constant S_ .f32 0x3F800000#32),
    unary main_cst_14 main_v26 (broadcastInDim S8192x1024 ![] bcast_S_S8192x1024 : (⟨S_, .f32⟩ : BufTy).Contents (Elt F) → (⟨S8192x1024, .f32⟩ : BufTy).Contents (Elt F)),
    binary main_v26 main_v25 main_v27 (addf : (⟨S8192x1024, .f32⟩ : BufTy).Contents (Elt F) → (⟨S8192x1024, .f32⟩ : BufTy).Contents (Elt F) → (⟨S8192x1024, .f32⟩ : BufTy).Contents (Elt F)),
    nullary main_cst_15 (constant S_ .f32 0x3F800000#32),
    unary main_cst_15 main_v28 (broadcastInDim S8192x1024 ![] bcast_S_S8192x1024 : (⟨S_, .f32⟩ : BufTy).Contents (Elt F) → (⟨S8192x1024, .f32⟩ : BufTy).Contents (Elt F)),
    binary main_v28 main_v27 main_v29 (Host.divf : (⟨S8192x1024, .f32⟩ : BufTy).Contents (Elt F) → (⟨S8192x1024, .f32⟩ : BufTy).Contents (Elt F) → (⟨S8192x1024, .f32⟩ : BufTy).Contents (Elt F)) ]

/-- The candidate and the result: operations 52 to 61. -/
abbrev opsD : List (HloOp τ sig (Elt F)) :=
  [ binary main_v21 main_arg1 main_v30 (mulf : (⟨S8192x1024, .f32⟩ : BufTy).Contents (Elt F) → (⟨S8192x1024, .f32⟩ : BufTy).Contents (Elt F) → (⟨S8192x1024, .f32⟩ : BufTy).Contents (Elt F)),
    binary main_v12 main_v30 main_v31 ((fun a b => concatenate S8192x1152 1 [⟨S8192x128, a⟩, ⟨S8192x1024, b⟩] concatenates_S8192x128_S8192x1024_S8192x1152_d1) : (⟨S8192x128, .f32⟩ : BufTy).Contents (Elt F) → (⟨S8192x1024, .f32⟩ : BufTy).Contents (Elt F) → (⟨S8192x1152, .f32⟩ : BufTy).Contents (Elt F)),
    unary main_arg5 main_v32 ((transpose S1152x1024 [1, 0] · transposes_S1024x1152_S1152x1024_1_0) : (⟨S1024x1152, .f32⟩ : BufTy).Contents (Elt F) → (⟨S1152x1024, .f32⟩ : BufTy).Contents (Elt F)),
    binary main_v31 main_v32 main_v33 ((fun l r => Host.dotGeneral dot_S8192x1152_S1152x1024_S8192x1024_1_0_0_1_n_n none l r) : (⟨S8192x1152, .f32⟩ : BufTy).Contents (Elt F) → (⟨S1152x1024, .f32⟩ : BufTy).Contents (Elt F) → (⟨S8192x1024, .f32⟩ : BufTy).Contents (Elt F)),
    unary main_v33 main_v34 (Host.tanh : (⟨S8192x1024, .f32⟩ : BufTy).Contents (Elt F) → (⟨S8192x1024, .f32⟩ : BufTy).Contents (Elt F)),
    nullary main_cst_16 (constant S_ .f32 0x3F800000#32),
    unary main_cst_16 main_v35 (broadcastInDim S8192x1024 ![] bcast_S_S8192x1024 : (⟨S_, .f32⟩ : BufTy).Contents (Elt F) → (⟨S8192x1024, .f32⟩ : BufTy).Contents (Elt F)),
    binary main_v35 main_v29 main_v36 (subf : (⟨S8192x1024, .f32⟩ : BufTy).Contents (Elt F) → (⟨S8192x1024, .f32⟩ : BufTy).Contents (Elt F) → (⟨S8192x1024, .f32⟩ : BufTy).Contents (Elt F)),
    binary main_v34 main_arg1 main_v37 (subf : (⟨S8192x1024, .f32⟩ : BufTy).Contents (Elt F) → (⟨S8192x1024, .f32⟩ : BufTy).Contents (Elt F) → (⟨S8192x1024, .f32⟩ : BufTy).Contents (Elt F)),
    binary main_v36 main_v37 main_v38 (mulf : (⟨S8192x1024, .f32⟩ : BufTy).Contents (Elt F) → (⟨S8192x1024, .f32⟩ : BufTy).Contents (Elt F) → (⟨S8192x1024, .f32⟩ : BufTy).Contents (Elt F)) ]

/-- The whole line. -/
abbrev ops : List (HloOp τ sig (Elt F)) := opsA ++ (opsS ++ (opsB ++ (opsC ++ opsD)))

set_option maxRecDepth 8192 in
set_option maxHeartbeats 4000000 in
/-- The printed @main is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsA_sub : (opsA : List (HloOp τ sig (Elt F))).Forall fun op => op.bufs ⊆ tcRefs τ sig :=
  ⟨unary_bufs_sub .., nullary_bufs_sub .., nullary_bufs_sub .., unary_bufs_sub .., binary_bufs_sub .., unary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩
theorem opsS_sub : (opsS : List (HloOp τ sig (Elt F))).Forall fun op => op.bufs ⊆ tcRefs τ sig :=
  ⟨unaryIndexed_bufs_sub .., reshape_bufs_sub ..⟩
theorem opsB_sub : (opsB : List (HloOp τ sig (Elt F))).Forall fun op => op.bufs ⊆ tcRefs τ sig :=
  ⟨binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨binary_bufs_sub .., binary_bufs_sub .., unary_bufs_sub .., binary_bufs_sub .., unary_bufs_sub .., nullary_bufs_sub .., unary_bufs_sub .., binary_bufs_sub .., binary_bufs_sub .., binary_bufs_sub ..⟩
theorem ops_sub : (ops : List (HloOp τ sig (Elt F))).Forall fun op => op.bufs ⊆ tcRefs τ sig := by
  rw [List.forall_iff_forall_mem]
  intro op hop
  simp only [ops, List.mem_append] at hop
  rcases hop with h | h | h | h | h
  · exact List.forall_iff_forall_mem.mp opsA_sub op h
  · exact List.forall_iff_forall_mem.mp opsS_sub op h
  · exact List.forall_iff_forall_mem.mp opsB_sub op h
  · exact List.forall_iff_forall_mem.mp opsC_sub op h
  · exact List.forall_iff_forall_mem.mp opsD_sub op h

/-- The fold over the whole line is the folds over the four stretches, in order. -/
theorem after_ops (V : Valuation τ sig (Elt F)) : after ops V = after opsD (after opsC (after opsB (after opsS (after opsA V)))) := by
  have ap : ∀ (l₁ l₂ : List (HloOp τ sig (Elt F))) (W : Valuation τ sig (Elt F)), after (l₁ ++ l₂) W = after l₂ (after l₁ W) := by
    intro l₁
    induction l₁ with
    | nil => intro l₂ W; rfl
    | cons op l ih => intro l₂ W; exact ih l₂ (op.result W)
  rw [ap, ap, ap, ap]

/-! ## The first stretch: the time index -/

/-- The wrapped time index. -/
theorem stageA_v4 (V : Valuation τ sig (Elt F)) :
    after opsA V (Proc.devRef .tc main_v4) = val_main_v4 (F := F) (V (Proc.devRef .tc main_arg0)) := by
  after_results
  simp only [TRef.ofBuf, TRef.toBuf, cast_eq]
  rfl

/-- The two zero starts. -/
theorem stageA_v7 (V : Valuation τ sig (Elt F)) : after opsA V (Proc.devRef .tc main_v7) = val_main_v7 (F := F) := by
  after_results
  rfl
theorem stageA_v10 (V : Valuation τ sig (Elt F)) : after opsA V (Proc.devRef .tc main_v10) = val_main_v10 (F := F) := by
  after_results
  rfl

/-- The stretch writes no argument. -/
theorem keptA (V : Valuation τ sig (Elt F)) :
    after opsA V (Proc.devRef .tc main_arg1) = V (Proc.devRef .tc main_arg1) ∧ after opsA V (Proc.devRef .tc main_arg2) = V (Proc.devRef .tc main_arg2)
    ∧ after opsA V (Proc.devRef .tc main_arg3) = V (Proc.devRef .tc main_arg3) ∧ after opsA V (Proc.devRef .tc main_arg4) = V (Proc.devRef .tc main_arg4)
    ∧ after opsA V (Proc.devRef .tc main_arg5) = V (Proc.devRef .tc main_arg5) := by
  refine ⟨?_, ?_, ?_, ?_, ?_⟩ <;> after_results

/-! ## The second stretch: the time slice -/

/-- The time slice, from whatever contents hold the three starts. -/
theorem stageS (W : Valuation τ sig (Elt F)) (x0 : (⟨S_, .f32⟩ : BufTy).Contents (Elt F))
    (h4 : W (Proc.devRef .tc main_v4) = val_main_v4 (F := F) x0) (h7 : W (Proc.devRef .tc main_v7) = val_main_v7 (F := F))
    (h10 : W (Proc.devRef .tc main_v10) = val_main_v10 (F := F)) :
    after opsS W (Proc.devRef .tc main_v12) = val_main_v12 (F := F) x0 (W (Proc.devRef .tc main_arg2)) := by
  after_results
  unfold val_main_v12 val_main_v11
  funext i
  refine congrFun (congrArg (fun st => shapeCast S8192x128 (Host.dynamicSlice S1x8192x128 (W (Proc.devRef .tc main_arg2)) st
    sliceFits_S128x8192x128_S1x8192x128) shapeCasts_S1x8192x128_S8192x128) (funext fun k => ?_)) i
  fin_cases k
  · show BitVec.toInt (W (Proc.devRef .tc main_v4) (Shape.Idx.first h_S_)) = BitVec.toInt (val_main_v4 (F := F) x0 (Shape.Idx.first h_S_))
    rw [h4]
  · show BitVec.toInt (W (Proc.devRef .tc main_v7) (Shape.Idx.first h_S_)) = BitVec.toInt (val_main_v7 (F := F) (Shape.Idx.first h_S_))
    rw [h7]
  · show BitVec.toInt (W (Proc.devRef .tc main_v10) (Shape.Idx.first h_S_)) = BitVec.toInt (val_main_v10 (F := F) (Shape.Idx.first h_S_))
    rw [h10]

/-- The stretch writes no argument. -/
theorem keptS (W : Valuation τ sig (Elt F)) :
    after opsS W (Proc.devRef .tc main_arg1) = W (Proc.devRef .tc main_arg1) ∧ after opsS W (Proc.devRef .tc main_arg3) = W (Proc.devRef .tc main_arg3)
    ∧ after opsS W (Proc.devRef .tc main_arg4) = W (Proc.devRef .tc main_arg4) ∧ after opsS W (Proc.devRef .tc main_arg5) = W (Proc.devRef .tc main_arg5) := by
  refine ⟨?_, ?_, ?_, ?_⟩ <;> after_results

/-! ## The third stretch: the reset gate -/

/-- The joined rows and the reset gate, from whatever contents hold the time slice, h and W_r. -/
theorem stageB (W : Valuation τ sig (Elt F)) (x0 : (⟨S_, .f32⟩ : BufTy).Contents (Elt F)) (x1 : (⟨S8192x1024, .f32⟩ : BufTy).Contents (Elt F))
    (x2 : (⟨S128x8192x128, .f32⟩ : BufTy).Contents (Elt F)) (x3 : (⟨S1024x1152, .f32⟩ : BufTy).Contents (Elt F))
    (h12 : W (Proc.devRef .tc main_v12) = val_main_v12 (F := F) x0 x2) (h1 : W (Proc.devRef .tc main_arg1) = x1) (h3 : W (Proc.devRef .tc main_arg3) = x3) :
    after opsB W (Proc.devRef .tc main_v13) = val_main_v13 (F := F) x0 x1 x2
    ∧ after opsB W (Proc.devRef .tc main_v21) = val_main_v21 (F := F) x0 x1 x2 x3 := by
  constructor
  · after_results
    rw [h12, h1]
    rfl
  · after_results
    rw [h12, h1, h3]
    rfl

/-- The stretch keeps the time slice and writes no argument. -/
theorem keptB (W : Valuation τ sig (Elt F)) :
    after opsB W (Proc.devRef .tc main_v12) = W (Proc.devRef .tc main_v12) ∧ after opsB W (Proc.devRef .tc main_arg1) = W (Proc.devRef .tc main_arg1)
    ∧ after opsB W (Proc.devRef .tc main_arg4) = W (Proc.devRef .tc main_arg4) ∧ after opsB W (Proc.devRef .tc main_arg5) = W (Proc.devRef .tc main_arg5) := by
  refine ⟨?_, ?_, ?_, ?_⟩ <;> after_results

/-! ## The fourth stretch: the update gate -/

theorem stageC (W : Valuation τ sig (Elt F)) (x0 : (⟨S_, .f32⟩ : BufTy).Contents (Elt F)) (x1 : (⟨S8192x1024, .f32⟩ : BufTy).Contents (Elt F))
    (x2 : (⟨S128x8192x128, .f32⟩ : BufTy).Contents (Elt F)) (x4 : (⟨S1024x1152, .f32⟩ : BufTy).Contents (Elt F))
    (h13 : W (Proc.devRef .tc main_v13) = val_main_v13 (F := F) x0 x1 x2) (h4 : W (Proc.devRef .tc main_arg4) = x4) :
    after opsC W (Proc.devRef .tc main_v29) = val_main_v29 (F := F) x0 x1 x2 x4 := by
  after_results
  rw [h13, h4]
  rfl

/-- The stretch keeps the reset gate and the time slice and writes no argument. -/
theorem keptC (W : Valuation τ sig (Elt F)) :
    after opsC W (Proc.devRef .tc main_v21) = W (Proc.devRef .tc main_v21) ∧ after opsC W (Proc.devRef .tc main_v12) = W (Proc.devRef .tc main_v12)
    ∧ after opsC W (Proc.devRef .tc main_arg1) = W (Proc.devRef .tc main_arg1) ∧ after opsC W (Proc.devRef .tc main_arg5) = W (Proc.devRef .tc main_arg5) := by
  refine ⟨?_, ?_, ?_, ?_⟩ <;> after_results

/-! ## The fifth stretch: the candidate and the result -/

theorem stageD (W : Valuation τ sig (Elt F)) (x0 : (⟨S_, .f32⟩ : BufTy).Contents (Elt F)) (x1 : (⟨S8192x1024, .f32⟩ : BufTy).Contents (Elt F))
    (x2 : (⟨S128x8192x128, .f32⟩ : BufTy).Contents (Elt F)) (x3 x4 x5 : (⟨S1024x1152, .f32⟩ : BufTy).Contents (Elt F))
    (h29 : W (Proc.devRef .tc main_v29) = val_main_v29 (F := F) x0 x1 x2 x4) (h21 : W (Proc.devRef .tc main_v21) = val_main_v21 (F := F) x0 x1 x2 x3)
    (h12 : W (Proc.devRef .tc main_v12) = val_main_v12 (F := F) x0 x2) (h1 : W (Proc.devRef .tc main_arg1) = x1) (h5 : W (Proc.devRef .tc main_arg5) = x5) :
    after opsD W (Proc.devRef .tc main_v38) = val_main_v38 (F := F) x0 x1 x2 x3 x4 x5 := by
  after_results
  rw [h29, h21, h12, h1, h5]
  rfl

/-! ## The whole line -/

/-- THE RESULT after the whole line, from any contents: the last stage of the arguments. -/
theorem result (V : Valuation τ sig (Elt F)) :
    after ops V (Proc.devRef .tc main_v38) = val_main_v38 (F := F) (V (Proc.devRef .tc main_arg0)) (V (Proc.devRef .tc main_arg1)) (V (Proc.devRef .tc main_arg2))
      (V (Proc.devRef .tc main_arg3)) (V (Proc.devRef .tc main_arg4)) (V (Proc.devRef .tc main_arg5)) := by
  rw [after_ops]
  obtain ⟨a1, a2, a3, a4, a5⟩ := keptA V
  have s12 := stageS (after opsA V) (V (Proc.devRef .tc main_arg0)) (stageA_v4 V) (stageA_v7 V) (stageA_v10 V)
  rw [a2] at s12
  obtain ⟨s1, s3, s4, s5⟩ := keptS (after opsA V)
  obtain ⟨b13, b21⟩ := stageB (after opsS (after opsA V)) _ _ _ _ s12 (s1.trans a1) (s3.trans a3)
  obtain ⟨b12, b1, b4, b5⟩ := keptB (after opsS (after opsA V))
  have c29 := stageC (after opsB (after opsS (after opsA V))) _ _ _ _ b13 (b4.trans (s4.trans a4))
  obtain ⟨c21, c12, c1, c5⟩ := keptC (after opsB (after opsS (after opsA V)))
  exact stageD (after opsC (after opsB (after opsS (after opsA V)))) _ _ _ _ _ _ c29 (c21.trans b21) (c12.trans (b12.trans s12))
    (c1.trans (b1.trans (s1.trans a1))) (c5.trans (b5.trans (s5.trans a5)))

/-- No stretch writes an argument. -/
theorem argsA (W : Valuation τ sig (Elt F)) :
    after opsA W (Proc.devRef .tc main_arg0) = W (Proc.devRef .tc main_arg0) ∧ after opsA W (Proc.devRef .tc main_arg1) = W (Proc.devRef .tc main_arg1)
    ∧ after opsA W (Proc.devRef .tc main_arg2) = W (Proc.devRef .tc main_arg2) ∧ after opsA W (Proc.devRef .tc main_arg3) = W (Proc.devRef .tc main_arg3)
    ∧ after opsA W (Proc.devRef .tc main_arg4) = W (Proc.devRef .tc main_arg4) ∧ after opsA W (Proc.devRef .tc main_arg5) = W (Proc.devRef .tc main_arg5) := by
  refine ⟨?_, ?_, ?_, ?_, ?_, ?_⟩ <;> after_results
theorem argsS (W : Valuation τ sig (Elt F)) :
    after opsS W (Proc.devRef .tc main_arg0) = W (Proc.devRef .tc main_arg0) ∧ after opsS W (Proc.devRef .tc main_arg1) = W (Proc.devRef .tc main_arg1)
    ∧ after opsS W (Proc.devRef .tc main_arg2) = W (Proc.devRef .tc main_arg2) ∧ after opsS W (Proc.devRef .tc main_arg3) = W (Proc.devRef .tc main_arg3)
    ∧ after opsS W (Proc.devRef .tc main_arg4) = W (Proc.devRef .tc main_arg4) ∧ after opsS W (Proc.devRef .tc main_arg5) = W (Proc.devRef .tc main_arg5) := by
  refine ⟨?_, ?_, ?_, ?_, ?_, ?_⟩ <;> after_results
theorem argsB (W : Valuation τ sig (Elt F)) :
    after opsB W (Proc.devRef .tc main_arg0) = W (Proc.devRef .tc main_arg0) ∧ after opsB W (Proc.devRef .tc main_arg1) = W (Proc.devRef .tc main_arg1)
    ∧ after opsB W (Proc.devRef .tc main_arg2) = W (Proc.devRef .tc main_arg2) ∧ after opsB W (Proc.devRef .tc main_arg3) = W (Proc.devRef .tc main_arg3)
    ∧ after opsB W (Proc.devRef .tc main_arg4) = W (Proc.devRef .tc main_arg4) ∧ after opsB W (Proc.devRef .tc main_arg5) = W (Proc.devRef .tc main_arg5) := by
  refine ⟨?_, ?_, ?_, ?_, ?_, ?_⟩ <;> after_results
theorem argsC (W : Valuation τ sig (Elt F)) :
    after opsC W (Proc.devRef .tc main_arg0) = W (Proc.devRef .tc main_arg0) ∧ after opsC W (Proc.devRef .tc main_arg1) = W (Proc.devRef .tc main_arg1)
    ∧ after opsC W (Proc.devRef .tc main_arg2) = W (Proc.devRef .tc main_arg2) ∧ after opsC W (Proc.devRef .tc main_arg3) = W (Proc.devRef .tc main_arg3)
    ∧ after opsC W (Proc.devRef .tc main_arg4) = W (Proc.devRef .tc main_arg4) ∧ after opsC W (Proc.devRef .tc main_arg5) = W (Proc.devRef .tc main_arg5) := by
  refine ⟨?_, ?_, ?_, ?_, ?_, ?_⟩ <;> after_results
theorem argsD (W : Valuation τ sig (Elt F)) :
    after opsD W (Proc.devRef .tc main_arg0) = W (Proc.devRef .tc main_arg0) ∧ after opsD W (Proc.devRef .tc main_arg1) = W (Proc.devRef .tc main_arg1)
    ∧ after opsD W (Proc.devRef .tc main_arg2) = W (Proc.devRef .tc main_arg2) ∧ after opsD W (Proc.devRef .tc main_arg3) = W (Proc.devRef .tc main_arg3)
    ∧ after opsD W (Proc.devRef .tc main_arg4) = W (Proc.devRef .tc main_arg4) ∧ after opsD W (Proc.devRef .tc main_arg5) = W (Proc.devRef .tc main_arg5) := by
  refine ⟨?_, ?_, ?_, ?_, ?_, ?_⟩ <;> after_results

/-- No operation of the line writes an argument. -/
theorem kept (V : Valuation τ sig (Elt F)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3)
    ∧ after ops V (Proc.devRef .tc main_arg4) = V (Proc.devRef .tc main_arg4) ∧ after ops V (Proc.devRef .tc main_arg5) = V (Proc.devRef .tc main_arg5) := by
  rw [after_ops]
  obtain ⟨a0, a1, a2, a3, a4, a5⟩ := argsA V
  obtain ⟨s0, s1, s2, s3, s4, s5⟩ := argsS (after opsA V)
  obtain ⟨b0, b1, b2, b3, b4, b5⟩ := argsB (after opsS (after opsA V))
  obtain ⟨c0, c1, c2, c3, c4, c5⟩ := argsC (after opsB (after opsS (after opsA V)))
  obtain ⟨d0, d1, d2, d3, d4, d5⟩ := argsD (after opsC (after opsB (after opsS (after opsA V))))
  exact ⟨d0.trans (c0.trans (b0.trans (s0.trans a0))), d1.trans (c1.trans (b1.trans (s1.trans a1))),
    d2.trans (c2.trans (b2.trans (s2.trans a2))), d3.trans (c3.trans (b3.trans (s3.trans a3))),
    d4.trans (c4.trans (b4.trans (s4.trans a4))), d5.trans (c5.trans (b5.trans (s5.trans a5)))⟩

/-- THE REFERENCE'S RUN: on every device, from any memory with zero counters, every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = val_main_v38 (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v38).trans (result _), (h c main_arg0).trans (kept _).1,
      (h c main_arg1).trans (kept _).2.1, (h c main_arg2).trans (kept _).2.2.1, (h c main_arg3).trans (kept _).2.2.2.1,
      (h c main_arg4).trans (kept _).2.2.2.2.1, (h c main_arg5).trans (kept _).2.2.2.2.2⟩)
    (run_seq scopedRefs_eq scopedSems_eq defs main (fun _ => ops) main_eq (fun _ => ops_sub) m ρ)

end Cert.ReferenceIdeal.StageRun

end
-- ==== Proof.ClampWord.lean ====
/-
  A 32-bit word clamped to [0, 127] as a signed integer — the smaller of 127 and the larger of 0 and the word — is,
  read unsigned, at most 127; and read signed it is that same natural number, so it is not negative.
-/
import Idealize.ShloMosaic.PureOps

namespace Cert.ClampWord

open Idealize.ShloMosaic

/-- The clamp of a word to [0, 127], signed: min 127 (max 0 y). -/
def clamp (y : BitVec 32) : BitVec 32 := IntOp.minsi 127#32 (IntOp.maxsi 0#32 y)

/-- Read unsigned, the clamped word is below 128. -/
theorem clamp_toNat_lt (y : BitVec 32) : (clamp y).toNat < 128 := by
  unfold clamp
  generalize hz : IntOp.maxsi 0#32 y = z
  have hz0 : z.slt 0#32 = false := by
    subst hz; unfold IntOp.maxsi
    cases h1 : y.slt 0#32
    · simp [h1]
    · simp
  unfold IntOp.minsi
  have hzl := z.isLt
  cases h2 : (127#32 : BitVec 32).slt z
  · simp only [Bool.false_eq_true, if_false]
    simp only [BitVec.slt, decide_eq_false_iff_not, not_lt] at hz0 h2
    unfold BitVec.toInt at hz0 h2
    simp at hz0 h2
    split at hz0 <;> split at h2 <;> omega
  · simp

/-- Read signed, the clamped word is its unsigned value: it is not negative. -/
theorem clamp_toInt (y : BitVec 32) : (clamp y).toInt = ((clamp y).toNat : Int) := by
  have h := clamp_toNat_lt y
  unfold BitVec.toInt
  rw [if_pos (by omega)]

/-- The clamped word is not below zero, signed. -/
theorem clamp_not_slt_zero (y : BitVec 32) : (clamp y).slt 0#32 = false := by
  simp only [BitVec.slt, decide_eq_false_iff_not, not_lt]
  rw [clamp_toInt]
  simp

end Cert.ClampWord
-- ==== Proof.TableKernel.lean ====
/-
  The prefetched table holds one word: the time argument converted to a 32-bit integer and clamped to [0, 127]. So the
  time slice the first window's index map reads lies inside the 128 slices of the coefficient array whatever the time
  argument is, and the pipeline's side condition on the table holds of every launch memory.
-/
import proofs.«105870_j36584531427600_1_alg».proof.Proof.Gen.Kernel.Frame
import proofs.«105870_j36584531427600_1_alg».proof.Proof.ClampWord
import Idealize.ShloMosaic.Lib.StableHlo.Run
import Idealize.ShloMosaic.Lib.Pipeline.Value
import Idealize.ShloMosaic.Lib.ValueIdx

set_option maxRecDepth 16384

noncomputable section

namespace Cert.Kernel.Table

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The time argument as launched (on the program's one device). -/
abbrev tArg : (⟨S_, .f32⟩ : BufTy).Contents (Elt F) := m (((0 : Dev nD) : Thread nD τ).loc main_arg0)

theorem tbl_array (x : S1.Idx) : V m (0 : Dev nD) main_v2 x = Cert.ClampWord.clamp (FloatOps.fptosi 32 (tArg m ValueIdx.ix0)) := by
  dsimp only [V]
  simp only [hostOps0, hostOps0_1, hostOps0_2, List.flatten_cons, List.flatten_nil, List.append_nil, List.cons_append, List.nil_append]
  after_results
  simp only [TRef.ofBuf, TRef.toBuf, cast_eq, id]
  exact congrArg (fun i => Cert.ClampWord.clamp (FloatOps.fptosi 32 (tArg m i))) (ValueIdx.eq_ix0 _)

/-- Whatever index the first window's map reads the table at, the word is the clamped time. -/
theorem tbl_word (x : S1.Idx) : tbl m 0 x = Cert.ClampWord.clamp (FloatOps.fptosi 32 (tArg m ValueIdx.ix0)) :=
  tbl_array m x

/-- The time slice both programs read: the clamped time, a number below 128. -/
def slice : Fin 128 := ⟨(Cert.ClampWord.clamp (FloatOps.fptosi 32 (tArg m ValueIdx.ix0))).toNat, Cert.ClampWord.clamp_toNat_lt _⟩

/-- A grid coordinate, a number below 32, survives the round trip through a 32-bit word. -/
theorem coord_word (i : grid0.Coords) : (BitVec.ofNat 32 (i 0).val).toNat = (i 0).val := by
  have hi : (i 0).val < 32 := (i 0).isLt
  simp only [BitVec.toNat_ofNat]
  omega

/-- The first window's block index at a grid point: (the time slice, the point's tile, 0). -/
theorem index0 (i : grid0.Coords) :
    cc0_transform_0 inb_S1_S1_0 numel1_S1 (tbl m) i = ![(slice m).val, (i 0).val, 0] := by
  have e : cc0_transform_0 inb_S1_S1_0 numel1_S1 (tbl m) i
      = ![(tbl m 0 ((Rect.unit (s := S1) ![0] S1.size inb_S1_S1_0).emb (Shape.Idx.first (numel1_S1.symm ▸ Nat.one_pos)))).toNat, (BitVec.ofNat 32 (i 0).val).toNat, 0] := rfl
  rw [e, tbl_word, coord_word]
  rfl

/-- THE SIDE CONDITION ON THE TABLE holds of every launch memory: block (slice, tile, 0) of extents 1 × 256 × 128 lies
    inside the 128 × 8192 × 128 array, and the transfers are of 32-bit words. -/
theorem ok : Ok m := by
  intro i
  refine ⟨fun a => ?_, Or.inl rfl⟩
  rw [index0]
  have hs := (slice m).isLt
  have hi : (i 0).val < 32 := (i 0).isLt
  fin_cases a <;> simp [S1x256x128, S128x8192x128] <;> omega

end Cert.Kernel.Table

end
-- ==== Proof.TableKernelIdeal.lean ====
/-
  The prefetched table holds one word: the time argument converted to a 32-bit integer and clamped to [0, 127]. So the
  time slice the first window's index map reads lies inside the 128 slices of the coefficient array whatever the time
  argument is, and the pipeline's side condition on the table holds of every launch memory.
-/
import proofs.«105870_j36584531427600_1_alg».proof.Proof.Gen.KernelIdeal.Frame
import proofs.«105870_j36584531427600_1_alg».proof.Proof.ClampWord
import Idealize.ShloMosaic.Lib.StableHlo.Run
import Idealize.ShloMosaic.Lib.Pipeline.Value
import Idealize.ShloMosaic.Lib.ValueIdx

set_option maxRecDepth 16384

noncomputable section

namespace Cert.KernelIdeal.Table

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The time argument as launched (on the program's one device). -/
abbrev tArg : (⟨S_, .f32⟩ : BufTy).Contents (Elt F) := m (((0 : Dev nD) : Thread nD τ).loc main_arg0)

theorem tbl_array (x : S1.Idx) : V m (0 : Dev nD) main_v2 x = Cert.ClampWord.clamp (FloatOps.fptosi 32 (tArg m ValueIdx.ix0)) := by
  dsimp only [V]
  simp only [hostOps0, hostOps0_1, hostOps0_2, List.flatten_cons, List.flatten_nil, List.append_nil, List.cons_append, List.nil_append]
  after_results
  simp only [TRef.ofBuf, TRef.toBuf, cast_eq, id]
  exact congrArg (fun i => Cert.ClampWord.clamp (FloatOps.fptosi 32 (tArg m i))) (ValueIdx.eq_ix0 _)

/-- Whatever index the first window's map reads the table at, the word is the clamped time. -/
theorem tbl_word (x : S1.Idx) : tbl m 0 x = Cert.ClampWord.clamp (FloatOps.fptosi 32 (tArg m ValueIdx.ix0)) :=
  tbl_array m x

/-- The time slice both programs read: the clamped time, a number below 128. -/
def slice : Fin 128 := ⟨(Cert.ClampWord.clamp (FloatOps.fptosi 32 (tArg m ValueIdx.ix0))).toNat, Cert.ClampWord.clamp_toNat_lt _⟩

/-- A grid coordinate, a number below 32, survives the round trip through a 32-bit word. -/
theorem coord_word (i : grid0.Coords) : (BitVec.ofNat 32 (i 0).val).toNat = (i 0).val := by
  have hi : (i 0).val < 32 := (i 0).isLt
  simp only [BitVec.toNat_ofNat]
  omega

/-- The first window's block index at a grid point: (the time slice, the point's tile, 0). -/
theorem index0 (i : grid0.Coords) :
    cc0_transform_0 inb_S1_S1_0 numel1_S1 (tbl m) i = ![(slice m).val, (i 0).val, 0] := by
  have e : cc0_transform_0 inb_S1_S1_0 numel1_S1 (tbl m) i
      = ![(tbl m 0 ((Rect.unit (s := S1) ![0] S1.size inb_S1_S1_0).emb (Shape.Idx.first (numel1_S1.symm ▸ Nat.one_pos)))).toNat, (BitVec.ofNat 32 (i 0).val).toNat, 0] := rfl
  rw [e, tbl_word, coord_word]
  rfl

/-- THE SIDE CONDITION ON THE TABLE holds of every launch memory: block (slice, tile, 0) of extents 1 × 256 × 128 lies
    inside the 128 × 8192 × 128 array, and the transfers are of 32-bit words. -/
theorem ok : Ok m := by
  intro i
  refine ⟨fun a => ?_, Or.inl rfl⟩
  rw [index0]
  have hs := (slice m).isLt
  have hi : (i 0).val < 32 := (i 0).isLt
  fin_cases a <;> simp [S1x256x128, S128x8192x128] <;> omega

end Cert.KernelIdeal.Table

end
-- ==== Proof.Spec.lean ====
/-
  The gated-recurrent-unit derivative both programs compute, as ONE function of the argument arrays on the extended
  reals. For a row p of the batch, with x = X[n, p, ·] (128 entries, n the time index), h = H[p, ·] (1024 entries) and a
  weight matrix W of 1024 rows and 128 + 1024 columns, a gate's pre-activation at output column j is

      pre W v j = Σ_{k < 128} x k · W[j, k]  +  Σ_{k < 1024} v k · W[j, 128 + k]

  (v the vector paired with the last 1024 columns). The reset gate is r = σ(pre W_r h), the update gate z = σ(pre W_z h),
  the candidate t = tanh(pre W_h (r ⊙ h)), and the result (1 − z j) · (t j − h j); σ a = 1 / (1 + e^(−a)).
  One program contracts the joined row [x | h] of 1152 entries against a row of W in a single sum; the other adds the
  two partial sums. The two agree because a finite sum over 128 + 1024 indices is the sum over the first 128 plus the
  sum over the last 1024 (`sum_split`): only the commutative-monoid laws of addition are used, which hold at the
  infinities too, so no finiteness is needed.
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

/-- Column k of the first 128 columns of a weight row. -/
def colX (k : Fin 128) : Fin 1152 := ⟨k.val, by have := k.isLt; omega⟩
/-- Column 128 + k: column k of the last 1024 columns of a weight row. -/
def colH (k : Fin 1024) : Fin 1152 := ⟨128 + k.val, by have := k.isLt; omega⟩

/-- A sum over 1152 = 128 + 1024 indices is the sum over the first 128 plus the sum over the last 1024. -/
theorem sum_split {M : Type*} [AddCommMonoid M] (f : Fin 1152 → M) :
    ∑ k : Fin 1152, f k = (∑ k : Fin 128, f (colX k)) + ∑ k : Fin 1024, f (colH k) := by
  have h := Fin.sum_univ_add (M := M) (a := 128) (b := 1024) f
  rw [h]
  congr 1

/-- The word 0x3F800000 is the real number one. -/
theorem one_word : Ideal.ofBits .f32 0x3F800000#32 = (1 : EReal) := by
  simp [Ideal.ofBits, Ideal.ieee, -EReal.coe_mul]; norm_num

/-- The float one, as both programs spell it. -/
abbrev one : EReal := Ideal.ofBits .f32 0x3F800000#32

/-- The result at one row and output column j, from the row's data: `xr` the row of x, `hr` the row of h, each gate's
    weights in two pieces (`·x j k` the entry at row j, column k of the first 128 columns; `·h j k` at column 128 + k). -/
def cell (xr : Fin 128 → EReal) (hr : Fin 1024 → EReal)
    (wrx : Fin 1024 → Fin 128 → EReal) (wrh : Fin 1024 → Fin 1024 → EReal)
    (wzx : Fin 1024 → Fin 128 → EReal) (wzh : Fin 1024 → Fin 1024 → EReal)
    (whx : Fin 1024 → Fin 128 → EReal) (whh : Fin 1024 → Fin 1024 → EReal) (j : Fin 1024) : EReal :=
  (one - Ideal.logistic ((∑ k : Fin 128, xr k * wzx j k) + ∑ k : Fin 1024, hr k * wzh j k))
    * (Ideal.tanh ((∑ k : Fin 128, xr k * whx j k)
        + ∑ k : Fin 1024, (Ideal.logistic ((∑ k' : Fin 128, xr k' * wrx k k') + ∑ k' : Fin 1024, hr k' * wrh k k') * hr k) * whh j k)
      - hr j)

/-- THE SPECIFICATION: the result array as a function of the time index n and the five arrays. -/
def G (n : Fin 128) (H : (⟨2, ![8192, 1024]⟩ : Shape).Idx → EReal) (X : (⟨3, ![128, 8192, 128]⟩ : Shape).Idx → EReal)
    (Wr Wz Wh : (⟨2, ![1024, 1152]⟩ : Shape).Idx → EReal) : (⟨2, ![8192, 1024]⟩ : Shape).Idx → EReal := fun i =>
  cell (fun k => X (ix3 n (⟨(i 0).val, (i 0).isLt⟩ : Fin 8192) k)) (fun k => H (ix2 (⟨(i 0).val, (i 0).isLt⟩ : Fin 8192) k))
    (fun j k => Wr (ix2 j (colX k))) (fun j k => Wr (ix2 j (colH k)))
    (fun j k => Wz (ix2 j (colX k))) (fun j k => Wz (ix2 j (colH k)))
    (fun j k => Wh (ix2 j (colX k))) (fun j k => Wh (ix2 j (colH k))) (⟨(i 1).val, (i 1).isLt⟩ : Fin 1024)

end Cert.GruSpec

end
-- ==== Proof.LibTransposedRhs.lean ====
/-
  A matrix product that contracts the SECOND axis of both operands, `[M, K] × [N, K] → [M, N]` (the right operand is
  given row by row: a weight matrix stored as output-rows × input-columns), into a zero accumulator, read at an element on
  the extended reals, for any sizes:

      (a ·ᵀ b)(p, q) = Σₖ a(p, k) · b(q, k).

  A dimension-numbers record over those three shapes that contracts axis 1 with axis 1, keeps axis 0 of each operand
  and has no batch axes IS the library's transposed-right record (`eq_transposedRhs`), so the product lemma serves every
  such record a program prints.
-/
import Idealize.ShloMosaic.PureOps.Ideal.Laws
import Idealize.ShloMosaic.Lib.ValueIdx

noncomputable section

namespace Cert.Lib.TransposedRhs

open Idealize.ShloMosaic Idealize.ShloMosaic.ValueIdx

variable {M K N : Nat}

/-- A record over `[M, K]`, `[N, K]`, `[M, N]` whose six lists are the transposed-right product's is that record. -/
theorem eq_transposedRhs (D : DotDims ⟨2, ![M, K]⟩ ⟨2, ![N, K]⟩ ⟨2, ![M, N]⟩) (h1 : D.lhsContracting = [1]) (h2 : D.rhsContracting = [1])
    (h3 : D.lhsNonContracting = [0]) (h4 : D.rhsNonContracting = [0]) (h5 : D.lhsBatch = []) (h6 : D.rhsBatch = []) :
    D = DotDims.transposedRhs M K N := by
  cases D
  simp only at h1 h2 h3 h4 h5 h6
  subst h1 h2 h3 h4 h5 h6
  rfl

/-- The left operand's row is the output's row. -/
theorem lhs0 (j : (⟨2, ![M, N]⟩ : Shape).Idx) (q : (DotDims.transposedRhs M K N).contr.Idx) :
    ((DotDims.transposedRhs M K N).lhsIdx j q 0).val = (j 0).val := rfl
/-- The left operand's column is the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val := rfl
/-- The right operand's row is the output's column. -/
theorem rhs0 (j : (⟨2, ![M, N]⟩ : Shape).Idx) (q : (DotDims.transposedRhs M K N).contr.Idx) :
    ((DotDims.transposedRhs M K N).rhsIdx j q 0).val = (j 1).val := rfl
/-- The right operand's column is the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val := rfl

/-- The product into the zero word, read at `(p, q)`: the sum over the contracted coordinate of row `p` of the left
    operand against row `q` of the right. -/
theorem matmul_zero_apply {φ₁ φ₂ : FTy} (prec : Option ContractPrecision) (a : FVec Ideal ⟨2, ![M, K]⟩ φ₁)
    (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

end Cert.Lib.TransposedRhs

end
-- ==== Proof.KernelPayload.lean ====
/-
  The kernel body's one stored value, read at row q (of the 256 rows of a batch tile) and output column j, on the
  extended reals: the cell function of the specification, fed the tile's row q of x and of h and the six weight
  pieces as the body loads them. Each of the six matrix products contracts the second axis of both operands into a zero
  accumulator, so at (q, j) it is Σₖ a(q, k) · w(j, k); the changes of float format are the identity; the logistic, the
  hyperbolic tangent, the sums, differences and products act entry by entry.
-/
import proofs.«105870_j36584531427600_1_alg».proof.Proof.Gen.KernelIdeal.Skeleton
import proofs.«105870_j36584531427600_1_alg».proof.Proof.Spec
import proofs.«105870_j36584531427600_1_alg».proof.Proof.LibTransposedRhs
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The product of a 256 × 128 tile with a 1024 × 128 weight piece: its record is the transposed-right one. -/
theorem dotX_eq : dot_S256x128_S1024x128_S256x1024_1_1_0_0_n_n = DotDims.transposedRhs 256 128 1024 :=
  Cert.Lib.TransposedRhs.eq_transposedRhs _ rfl rfl rfl rfl rfl rfl

/-- The product of a 256 × 1024 tile with a 1024 × 1024 weight piece: its record is the transposed-right one. -/
theorem dotH_eq : dot_S256x1024_S1024x1024_S256x1024_1_1_0_0_n_n = DotDims.transposedRhs 256 1024 1024 :=
  Cert.Lib.TransposedRhs.eq_transposedRhs _ rfl rfl rfl rfl rfl rfl

/-- A tile of x against a weight piece of 128 columns, at (q, j). -/
theorem mmX (a : FVec Ideal S256x128 .bf16) (w : FVec Ideal S1024x128 .bf16) (q : Fin 256) (j : Fin 1024) :
    matmul dot_S256x128_S1024x128_S256x1024_1_1_0_0_n_n none a w (constant S256x1024 .f32 0x00000000#32) (ix2 q j)
      = ∑ k : Fin 128, a (ix2 q k) * w (ix2 j k) := by
  rw [dotX_eq]
  exact Cert.Lib.TransposedRhs.matmul_zero_apply none a w q j

/-- A tile of 1024 columns against a weight piece of 1024 columns, at (q, j). -/
theorem mmH (a : FVec Ideal S256x1024 .bf16) (w : FVec Ideal S1024x1024 .bf16) (q : Fin 256) (j : Fin 1024) :
    matmul dot_S256x1024_S1024x1024_S256x1024_1_1_0_0_n_n none a w (constant S256x1024 .f32 0x00000000#32) (ix2 q j)
      = ∑ k : Fin 1024, a (ix2 q k) * w (ix2 j k) := by
  rw [dotH_eq]
  exact Cert.Lib.TransposedRhs.matmul_zero_apply none a w q j

/-- The logistic and the hyperbolic tangent act entry by entry. -/
theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- THE PAYLOAD AT AN ELEMENT: the stored value at (q, j) is the specification's cell at the tile's row q. -/
theorem pay_apply (x0 : Vec Ideal S1x256x128 .f32) (x1 : Vec Ideal S256x1024 .f32) (x2 : Vec Ideal S1024x128 .bf16)
    (x3 : Vec Ideal S1024x1024 .bf16) (x4 : Vec Ideal S1024x128 .bf16) (x5 : Vec Ideal S1024x1024 .bf16)
    (x6 : Vec Ideal S1024x128 .bf16) (x7 : Vec Ideal S1024x1024 .bf16) (q : Fin 256) (j : Fin 1024) :
    k0_pay1 (F := Ideal) x0 x1 x2 x3 x4 x5 x6 x7 (ix2 q j)
      = Cert.GruSpec.cell (fun k => x0 (ix3 (0 : Fin 1) q k)) (fun k => x1 (ix2 q k))
          (fun j k => x2 (ix2 j k)) (fun j k => x3 (ix2 j k)) (fun j k => x4 (ix2 j k)) (fun j k => x5 (ix2 j k))
          (fun j k => x6 (ix2 j k)) (fun j k => x7 (ix2 j k)) j := by
  unfold k0_pay1 Cert.GruSpec.cell
  simp only [shapeCast_self, mulf_apply, subf_apply, addf_apply, broadcast_apply, logistic_apply, tanh_apply, mmX, mmH,
    truncf_apply, shapeCast_1ab_ab_apply]
  rfl

end Cert.KernelIdeal.Payload

end
-- ==== Proof.KernelPiece.lean ====
/-
  What the kernel body leaves in the output tile's staging buffer: its one store covers the whole 256 × 1024 tile, so
  the buffer reads back as the stored value, which is the body's arithmetic applied to the eight blocks it loaded whole.
-/
import proofs.«105870_j36584531427600_1_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile the body leaves is the payload of the loaded blocks, whatever staging memrefs it ran on. -/
theorem out_eq (c : Dev nD) (i : grid0.Coords) (arg2 : Memref sig .tc .vmem S1x256x128 .f32) (harg2 : arg2.IsWhole) (arg3 : Memref sig .tc .vmem S256x1024 .f32) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S256x1024 .f32) (harg10 : arg10.IsWhole)
    (x0 : Vec F S1x256x128 .f32) (x1 : Vec F S256x1024 .f32) (x2 : Vec F S1024x128 .bf16) (x3 : Vec F S1024x1024 .bf16) (x4 : Vec F S1024x128 .bf16) (x5 : Vec F S1024x1024 .bf16) (x6 : Vec F S1024x128 .bf16) (x7 : Vec F S1024x1024 .bf16) (xt0 : TbBuf0 (F := F) c tbM0_0) :
    out0_A_8 c i arg2 harg2 arg3 harg3 arg4 harg4 arg5 harg5 arg6 harg6 arg7 harg7 arg8 harg8 arg9 harg9 arg10 harg10 x0 x1 x2 x3 x4 x5 x6 x7 xt0 = k0_pay1 x0 x1 x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7 xt0)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S1x256x128) hz3,
    View.ld_unit_zero (S := S256x1024) hz2, View.ld_unit_zero (S := S1024x128) hz2, View.ld_unit_zero (S := S1024x1024) hz2]

end Cert.KernelIdeal.Piece

end
-- ==== Proof.KernelValue.lean ====
/-
  The kernel's result array, read off its frame run: it ends holding the specification at the clamped time.
  At grid point t the pipeline hands the body rows 256 t … 256 t + 255 of time slice n of the coefficient array (n the
  table's word), the same rows of h, and the six weight pieces whole (each cut out of its matrix by the host operations
  before the region; the change of float format is the identity on the extended reals). The body's one store leaves the
  payload of those blocks in the output tile, which is the specification's cell at row 256 t + q; tile t is written
  back to rows 256 t … 256 t + 255 of the result, and the 32 tiles cover its 8192 rows.
-/
import proofs.«105870_j36584531427600_1_alg».proof.Proof.Gen.KernelIdeal.Frame
import proofs.«105870_j36584531427600_1_alg».proof.Proof.Spec
import proofs.«105870_j36584531427600_1_alg».proof.Proof.KernelPayload
import proofs.«105870_j36584531427600_1_alg».proof.Proof.KernelPiece
import proofs.«105870_j36584531427600_1_alg».proof.Proof.TableKernelIdeal
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The side condition on the table, which holds of every launch memory. -/
abbrev hO : Ok m := Cert.KernelIdeal.Table.ok m

/-- The five arrays as launched. -/
abbrev Xa (c : Dev nD) : (⟨3, ![128, 8192, 128]⟩ : Shape).Idx → EReal := m ((c : Thread nD τ).loc main_arg2)
abbrev Ha (c : Dev nD) : (⟨2, ![8192, 1024]⟩ : Shape).Idx → EReal := m ((c : Thread nD τ).loc main_arg1)
abbrev Wra (c : Dev nD) : (⟨2, ![1024, 1152]⟩ : Shape).Idx → EReal := m ((c : Thread nD τ).loc main_arg3)
abbrev Wza (c : Dev nD) : (⟨2, ![1024, 1152]⟩ : Shape).Idx → EReal := m ((c : Thread nD τ).loc main_arg4)
abbrev Wha (c : Dev nD) : (⟨2, ![1024, 1152]⟩ : Shape).Idx → EReal := m ((c : Thread nD τ).loc main_arg5)

/-- THE VALUE the result array ends holding: the specification at the clamped time. -/
def val (c : Dev nD) : (⟨2, ![8192, 1024]⟩ : Shape).Idx → EReal :=
  Cert.GruSpec.G (Cert.KernelIdeal.Table.slice m) (Ha m c) (Xa m c) (Wra m c) (Wza m c) (Wha m c)

/-- The eight input blocks at a grid point, at their literal types. -/
abbrev b0 (c : Dev nD) (t : Fin (cfgM m (hO m)).N) : Vec Ideal S1x256x128 .f32 := iblk m (hO m) c 0 t
abbrev b1 (c : Dev nD) (t : Fin (cfgM m (hO m)).N) : Vec Ideal S256x1024 .f32 := iblk m (hO m) c 1 t
abbrev b2 (c : Dev nD) (t : Fin (cfgM m (hO m)).N) : Vec Ideal S1024x128 .bf16 := iblk m (hO m) c 2 t
abbrev b3 (c : Dev nD) (t : Fin (cfgM m (hO m)).N) : Vec Ideal S1024x1024 .bf16 := iblk m (hO m) c 3 t
abbrev b4 (c : Dev nD) (t : Fin (cfgM m (hO m)).N) : Vec Ideal S1024x128 .bf16 := iblk m (hO m) c 4 t
abbrev b5 (c : Dev nD) (t : Fin (cfgM m (hO m)).N) : Vec Ideal S1024x1024 .bf16 := iblk m (hO m) c 5 t
abbrev b6 (c : Dev nD) (t : Fin (cfgM m (hO m)).N) : Vec Ideal S1024x128 .bf16 := iblk m (hO m) c 6 t
abbrev b7 (c : Dev nD) (t : Fin (cfgM m (hO m)).N) : Vec Ideal S1024x1024 .bf16 := iblk m (hO m) c 7 t

/-- On the one grid axis a point's coordinate is its number. -/
theorem coords_val : ∀ t : Fin grid0.N, (grid0.coords t 0).val = t.val := by decide +kernel

/-- Row q of tile t is row 256 t + q of the batch. -/
def row (t : Fin (cfgM m (hO m)).N) (q : Fin 256) : Fin 8192 :=
  ⟨256 * t.val + q.val, by have := t.isLt; have : (cfgM m (hO m)).N = 32 := N_0; have := q.isLt; omega⟩

/-- The printed index maps that read no table, decided over the grid: tile t of h and of the result is block (t, 0);
    every weight piece is its one block (0, 0). -/
theorem idx_facts : ∀ t : Fin grid0.N,
    cc0_transform_1 (grid0.coords t) (0 : Fin 2) = t.val ∧ cc0_transform_1 (grid0.coords t) (1 : Fin 2) = 0
    ∧ cc0_transform_8 (grid0.coords t) (0 : Fin 2) = t.val ∧ cc0_transform_8 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = 0 ∧ cc0_transform_3 (grid0.coords t) (1 : Fin 2) = 0
    ∧ cc0_transform_4 (grid0.coords t) (0 : Fin 2) = 0 ∧ cc0_transform_4 (grid0.coords t) (1 : Fin 2) = 0
    ∧ cc0_transform_5 (grid0.coords t) (0 : Fin 2) = 0 ∧ cc0_transform_5 (grid0.coords t) (1 : Fin 2) = 0
    ∧ cc0_transform_6 (grid0.coords t) (0 : Fin 2) = 0 ∧ cc0_transform_6 (grid0.coords t) (1 : Fin 2) = 0
    ∧ cc0_transform_7 (grid0.coords t) (0 : Fin 2) = 0 ∧ cc0_transform_7 (grid0.coords t) (1 : Fin 2) = 0 :=
  (by decide +kernel : ∀ t : Fin grid0.N, _)

/-- The h tile at point t: rows 256 t … 256 t + 255 of h. -/
theorem b1_apply (c : Dev nD) (t : Fin (cfgM m (hO m)).N) (q : Fin 256) (k : Fin 1024) :
    b1 m c t (ix2 q k) = Ha m c (ix2 (row m t q) k) := by
  show V m c main_arg1 ((((cfgM m (hO m)).win 1).blk t).view.emb (ix2 q k)) = _
  rw [V_main_arg1]
  refine congrArg (m ((c : Thread nD τ).loc main_arg1)) ?_
  obtain ⟨e0, e1, -⟩ := idx_facts t
  funext a; apply Fin.ext
  match a with
  | ⟨0, _⟩ => show cc0_transform_1 (grid0.coords t) (0 : Fin 2) * 256 + 1 * q.val = 256 * t.val + q.val; omega
  | ⟨1, _⟩ => show cc0_transform_1 (grid0.coords t) (1 : Fin 2) * 1024 + 1 * k.val = k.val; omega

/-- The x tile at point t: rows 256 t … 256 t + 255 of the time slice the table names. -/
theorem b0_apply (c : Dev nD) (t : Fin (cfgM m (hO m)).N) (q : Fin 256) (k : Fin 128) :
    b0 m c t (ix3 (0 : Fin 1) q k) = Xa m c (ix3 (Cert.KernelIdeal.Table.slice m) (row m t q) k) := by
  show V m c main_arg2 ((((cfgM m (hO m)).win 0).blk t).view.emb (ix3 (0 : Fin 1) q k)) = _
  rw [V_main_arg2]
  refine congrArg (m ((c : Thread nD τ).loc main_arg2)) ?_
  have e := Cert.KernelIdeal.Table.index0 m (grid0.coords t)
  have ec := coords_val t
  funext a; apply Fin.ext
  match a with
  | ⟨0, _⟩ =>
    show cc0_transform_0 inb_S1_S1_0 numel1_S1 (tbl m) (grid0.coords t) (0 : Fin 3) * 1 + 1 * 0 = (Cert.KernelIdeal.Table.slice m).val
    rw [e]; simp
  | ⟨1, _⟩ =>
    show cc0_transform_0 inb_S1_S1_0 numel1_S1 (tbl m) (grid0.coords t) (1 : Fin 3) * 256 + 1 * q.val = 256 * t.val + q.val
    rw [e]; simp; omega
  | ⟨2, _⟩ =>
    show cc0_transform_0 inb_S1_S1_0 numel1_S1 (tbl m) (grid0.coords t) (2 : Fin 3) * 128 + 1 * k.val = k.val
    rw [e]; simp

/-! ## The weight pieces: each is cut out of its matrix on the host before the region, and staged whole -/

/-- The reset gate's first 128 columns, as the region finds them (the change of float format is the identity on the extended reals). -/
theorem V_main_v4 (c : Dev nD) : V m c main_v4
    = (truncf (F := Ideal) .bf16 (extractStridedSlice S1024x128 ![0, 0] (Wra m c) slices_S1024x1152_S1024x128_0_0) bitsLt_bf16_f32 : FVec Ideal S1024x128 .bf16) := by
  dsimp only [V]
  simp only [hostOps0, hostOps0_1, hostOps0_2, List.flatten_cons, List.flatten_nil, List.append_nil, List.cons_append, List.nil_append]
  after_results

/-- Window 2's block at any point is that whole piece: entry (j, k) is the matrix's entry (j, 0 + k). -/
theorem b2_apply (c : Dev nD) (t : Fin (cfgM m (hO m)).N) (j : Fin 1024) (k : Fin 128) :
    b2 m c t (ix2 j k) = Wra m c (ix2 j (Cert.GruSpec.colX k)) := by
  show V m c main_v4 ((((cfgM m (hO m)).win 2).blk t).view.emb (ix2 j k)) = _
  have hemb : (((cfgM m (hO m)).win 2).blk t).view.emb (ix2 j k) = ix2 j k := by
    obtain ⟨-, -, -, -, e0, e1, -, -, -, -, -, -, -, -, -, -⟩ := idx_facts t
    funext a; apply Fin.ext
    match a with
    | ⟨0, _⟩ => show cc0_transform_2 (grid0.coords t) (0 : Fin 2) * 1024 + 1 * j.val = j.val; omega
    | ⟨1, _⟩ => show cc0_transform_2 (grid0.coords t) (1 : Fin 2) * 128 + 1 * k.val = k.val; omega
  rw [hemb, V_main_v4]
  exact slice2_axis1_apply 0 (Wra m c) slices_S1024x1152_S1024x128_0_0 j k (Cert.GruSpec.colX k) (Nat.zero_add _).symm

/-- The reset gate's last 1024 columns, as the region finds them (the change of float format is the identity on the extended reals). -/
theorem V_main_v6 (c : Dev nD) : V m c main_v6
    = (truncf (F := Ideal) .bf16 (extractStridedSlice S1024x1024 ![0, 128] (Wra m c) slices_S1024x1152_S1024x1024_0_128) bitsLt_bf16_f32 : FVec Ideal S1024x1024 .bf16) := by
  dsimp only [V]
  simp only [hostOps0, hostOps0_1, hostOps0_2, List.flatten_cons, List.flatten_nil, List.append_nil, List.cons_append, List.nil_append]
  after_results

/-- Window 3's block at any point is that whole piece: entry (j, k) is the matrix's entry (j, 128 + k). -/
theorem b3_apply (c : Dev nD) (t : Fin (cfgM m (hO m)).N) (j : Fin 1024) (k : Fin 1024) :
    b3 m c t (ix2 j k) = Wra m c (ix2 j (Cert.GruSpec.colH k)) := by
  show V m c main_v6 ((((cfgM m (hO m)).win 3).blk t).view.emb (ix2 j k)) = _
  have hemb : (((cfgM m (hO m)).win 3).blk t).view.emb (ix2 j k) = ix2 j k := by
    obtain ⟨-, -, -, -, -, -, e0, e1, -, -, -, -, -, -, -, -⟩ := idx_facts t
    funext a; apply Fin.ext
    match a with
    | ⟨0, _⟩ => show cc0_transform_3 (grid0.coords t) (0 : Fin 2) * 1024 + 1 * j.val = j.val; omega
    | ⟨1, _⟩ => show cc0_transform_3 (grid0.coords t) (1 : Fin 2) * 1024 + 1 * k.val = k.val; omega
  rw [hemb, V_main_v6]
  exact slice2_axis1_apply 128 (Wra m c) slices_S1024x1152_S1024x1024_0_128 j k (Cert.GruSpec.colH k) rfl

/-- The update gate's first 128 columns, as the region finds them (the change of float format is the identity on the extended reals). -/
theorem V_main_v8 (c : Dev nD) : V m c main_v8
    = (truncf (F := Ideal) .bf16 (extractStridedSlice S1024x128 ![0, 0] (Wza m c) slices_S1024x1152_S1024x128_0_0) bitsLt_bf16_f32 : FVec Ideal S1024x128 .bf16) := by
  dsimp only [V]
  simp only [hostOps0, hostOps0_1, hostOps0_2, List.flatten_cons, List.flatten_nil, List.append_nil, List.cons_append, List.nil_append]
  after_results

/-- Window 4's block at any point is that whole piece: entry (j, k) is the matrix's entry (j, 0 + k). -/
theorem b4_apply (c : Dev nD) (t : Fin (cfgM m (hO m)).N) (j : Fin 1024) (k : Fin 128) :
    b4 m c t (ix2 j k) = Wza m c (ix2 j (Cert.GruSpec.colX k)) := by
  show V m c main_v8 ((((cfgM m (hO m)).win 4).blk t).view.emb (ix2 j k)) = _
  have hemb : (((cfgM m (hO m)).win 4).blk t).view.emb (ix2 j k) = ix2 j k := by
    obtain ⟨-, -, -, -, -, -, -, -, e0, e1, -, -, -, -, -, -⟩ := idx_facts t
    funext a; apply Fin.ext
    match a with
    | ⟨0, _⟩ => show cc0_transform_4 (grid0.coords t) (0 : Fin 2) * 1024 + 1 * j.val = j.val; omega
    | ⟨1, _⟩ => show cc0_transform_4 (grid0.coords t) (1 : Fin 2) * 128 + 1 * k.val = k.val; omega
  rw [hemb, V_main_v8]
  exact slice2_axis1_apply 0 (Wza m c) slices_S1024x1152_S1024x128_0_0 j k (Cert.GruSpec.colX k) (Nat.zero_add _).symm

/-- The update gate's last 1024 columns, as the region finds them (the change of float format is the identity on the extended reals). -/
theorem V_main_v10 (c : Dev nD) : V m c main_v10
    = (truncf (F := Ideal) .bf16 (extractStridedSlice S1024x1024 ![0, 128] (Wza m c) slices_S1024x1152_S1024x1024_0_128) bitsLt_bf16_f32 : FVec Ideal S1024x1024 .bf16) := by
  dsimp only [V]
  simp only [hostOps0, hostOps0_1, hostOps0_2, List.flatten_cons, List.flatten_nil, List.append_nil, List.cons_append, List.nil_append]
  after_results

/-- Window 5's block at any point is that whole piece: entry (j, k) is the matrix's entry (j, 128 + k). -/
theorem b5_apply (c : Dev nD) (t : Fin (cfgM m (hO m)).N) (j : Fin 1024) (k : Fin 1024) :
    b5 m c t (ix2 j k) = Wza m c (ix2 j (Cert.GruSpec.colH k)) := by
  show V m c main_v10 ((((cfgM m (hO m)).win 5).blk t).view.emb (ix2 j k)) = _
  have hemb : (((cfgM m (hO m)).win 5).blk t).view.emb (ix2 j k) = ix2 j k := by
    obtain ⟨-, -, -, -, -, -, -, -, -, -, e0, e1, -, -, -, -⟩ := idx_facts t
    funext a; apply Fin.ext
    match a with
    | ⟨0, _⟩ => show cc0_transform_5 (grid0.coords t) (0 : Fin 2) * 1024 + 1 * j.val = j.val; omega
    | ⟨1, _⟩ => show cc0_transform_5 (grid0.coords t) (1 : Fin 2) * 1024 + 1 * k.val = k.val; omega
  rw [hemb, V_main_v10]
  exact slice2_axis1_apply 128 (Wza m c) slices_S1024x1152_S1024x1024_0_128 j k (Cert.GruSpec.colH k) rfl

/-- The candidate's first 128 columns, as the region finds them (the change of float format is the identity on the extended reals). -/
theorem V_main_v12 (c : Dev nD) : V m c main_v12
    = (truncf (F := Ideal) .bf16 (extractStridedSlice S1024x128 ![0, 0] (Wha m c) slices_S1024x1152_S1024x128_0_0) bitsLt_bf16_f32 : FVec Ideal S1024x128 .bf16) := by
  dsimp only [V]
  simp only [hostOps0, hostOps0_1, hostOps0_2, List.flatten_cons, List.flatten_nil, List.append_nil, List.cons_append, List.nil_append]
  after_results

/-- Window 6's block at any point is that whole piece: entry (j, k) is the matrix's entry (j, 0 + k). -/
theorem b6_apply (c : Dev nD) (t : Fin (cfgM m (hO m)).N) (j : Fin 1024) (k : Fin 128) :
    b6 m c t (ix2 j k) = Wha m c (ix2 j (Cert.GruSpec.colX k)) := by
  show V m c main_v12 ((((cfgM m (hO m)).win 6).blk t).view.emb (ix2 j k)) = _
  have hemb : (((cfgM m (hO m)).win 6).blk t).view.emb (ix2 j k) = ix2 j k := by
    obtain ⟨-, -, -, -, -, -, -, -, -, -, -, -, e0, e1, -, -⟩ := idx_facts t
    funext a; apply Fin.ext
    match a with
    | ⟨0, _⟩ => show cc0_transform_6 (grid0.coords t) (0 : Fin 2) * 1024 + 1 * j.val = j.val; omega
    | ⟨1, _⟩ => show cc0_transform_6 (grid0.coords t) (1 : Fin 2) * 128 + 1 * k.val = k.val; omega
  rw [hemb, V_main_v12]
  exact slice2_axis1_apply 0 (Wha m c) slices_S1024x1152_S1024x128_0_0 j k (Cert.GruSpec.colX k) (Nat.zero_add _).symm

/-- The candidate's last 1024 columns, as the region finds them (the change of float format is the identity on the extended reals). -/
theorem V_main_v14 (c : Dev nD) : V m c main_v14
    = (truncf (F := Ideal) .bf16 (extractStridedSlice S1024x1024 ![0, 128] (Wha m c) slices_S1024x1152_S1024x1024_0_128) bitsLt_bf16_f32 : FVec Ideal S1024x1024 .bf16) := by
  dsimp only [V]
  simp only [hostOps0, hostOps0_1, hostOps0_2, List.flatten_cons, List.flatten_nil, List.append_nil, List.cons_append, List.nil_append]
  after_results

/-- Window 7's block at any point is that whole piece: entry (j, k) is the matrix's entry (j, 128 + k). -/
theorem b7_apply (c : Dev nD) (t : Fin (cfgM m (hO m)).N) (j : Fin 1024) (k : Fin 1024) :
    b7 m c t (ix2 j k) = Wha m c (ix2 j (Cert.GruSpec.colH k)) := by
  show V m c main_v14 ((((cfgM m (hO m)).win 7).blk t).view.emb (ix2 j k)) = _
  have hemb : (((cfgM m (hO m)).win 7).blk t).view.emb (ix2 j k) = ix2 j k := by
    obtain ⟨-, -, -, -, -, -, -, -, -, -, -, -, -, -, e0, e1⟩ := idx_facts t
    funext a; apply Fin.ext
    match a with
    | ⟨0, _⟩ => show cc0_transform_7 (grid0.coords t) (0 : Fin 2) * 1024 + 1 * j.val = j.val; omega
    | ⟨1, _⟩ => show cc0_transform_7 (grid0.coords t) (1 : Fin 2) * 1024 + 1 * k.val = k.val; omega
  rw [hemb, V_main_v14]
  exact slice2_axis1_apply 128 (Wha m c) slices_S1024x1152_S1024x1024_0_128 j k (Cert.GruSpec.colH k) rfl

/-! ## What a grid point writes back -/

/-- THE TILE the body leaves at point t, read at (q, j): the specification at row 256 t + q, column j. -/
theorem outs_apply (c : Dev nD) (t : Fin (cfgM m (hO m)).N) (q : Fin 256) (j : Fin 1024) :
    outsAt0 m (hO m) c t (ix2 q j) = val m c (ix2 (row m t q) j) := by
  unfold outsAt0
  refine (congrFun (Cert.KernelIdeal.Piece.out_eq (F := Ideal) c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0)) (ix2 q j)).trans ?_
  refine (Cert.KernelIdeal.Payload.pay_apply (b0 m c t) (b1 m c t) (b2 m c t) (b3 m c t) (b4 m c t) (b5 m c t) (b6 m c t) (b7 m c t) q j).trans ?_
  unfold val Cert.GruSpec.G
  simp only [b0_apply, b1_apply, b2_apply, b3_apply, b4_apply, b5_apply, b6_apply, b7_apply]

/-- WHAT POINT t WRITES BACK is tile t of the specification. -/
theorem flushed_eq (c : Dev nD) (t : Fin (cfgM m (hO m)).N) :
    (dats m (hO m) 0 c).flushed 8 t = (((cfgM m (hO m)).win 8).blk t).view.read (Elt Ideal) (val m c) := by
  show ((cfgM m (hO m)).win 8).cut (grid0.coords t) ((dats m (hO m) 0 c).after 8 t) = _
  rw [after0_8]
  show (outsAt0 m (hO m) c t : S256x1024.Idx → EReal) = fun y => val m c ((((cfgM m (hO m)).win 8).blk t).view.emb y)
  funext y
  obtain ⟨q, j, rfl⟩ : ∃ (q : Fin 256) (j : Fin 1024), y = ix2 q j := ⟨y 0, y 1, eq_ix2 y⟩
  refine (outs_apply m c t q j).trans ?_
  refine congrArg (val m c) ?_
  obtain ⟨-, -, e0, e1, -⟩ := idx_facts t
  funext a; apply Fin.ext
  match a with
  | ⟨0, _⟩ => show 256 * t.val + q.val = cc0_transform_8 (grid0.coords t) (0 : Fin 2) * 256 + 1 * q.val; omega
  | ⟨1, _⟩ => show j.val = cc0_transform_8 (grid0.coords t) (1 : Fin 2) * 1024 + 1 * j.val; omega

/-- An index of the result is in point t's tile iff each coordinate is in the tile's range on its axis. -/
theorem mem_blk (t : Fin (cfgM m (hO m)).N) (i : S8192x1024.Idx) :
    i ∈ (((cfgM m (hO m)).win 8).blk t).view.set ↔ ∀ a : Fin 2, cc0_transform_8 (grid0.coords t) a * S256x1024.size a ≤ (i a).val ∧ (i a).val < cc0_transform_8 (grid0.coords t) a * S256x1024.size a + S256x1024.size a := by
  have e : (((cfgM m (hO m)).win 8).blk t).view.set = (((cfgM m (hO m)).win 8).rect t).set := View.set_slice_whole main_v15 _
  rw [e]
  exact Rect.mem_set_unit

/-- Every row of the batch lies in a tile: row r in tile r / 256, which is written back. -/
theorem cover (i : S8192x1024.Idx) : ∃ t : Fin (cfgM m (hO m)).N, ((cfgM m (hO m)).win 8).flush t = true ∧ i ∈ (((cfgM m (hO m)).win 8).blk t).view.set := by
  have hi0 : (i 0).val < 8192 := (i 0).isLt
  have hi1 : (i 1).val < 1024 := (i 1).isLt
  have hN : (cfgM m (hO m)).N = 32 := N_0
  let t : Fin (cfgM m (hO m)).N := ⟨(i 0).val / 256, by omega⟩
  refine ⟨t, flush0_8 (adm m (hO m)) t, ?_⟩
  rw [mem_blk]
  obtain ⟨-, -, e0, e1, -⟩ := idx_facts t
  have ht : t.val = (i 0).val / 256 := rfl
  intro a
  match a with
  | ⟨0, _⟩ => show cc0_transform_8 (grid0.coords t) (0 : Fin 2) * 256 ≤ (i 0).val ∧ (i 0).val < cc0_transform_8 (grid0.coords t) (0 : Fin 2) * 256 + 256; omega
  | ⟨1, _⟩ => show cc0_transform_8 (grid0.coords t) (1 : Fin 2) * 1024 ≤ (i 1).val ∧ (i 1).val < cc0_transform_8 (grid0.coords t) (1 : Fin 2) * 1024 + 1024; omega

/-- THE RESULT ARRAY after the run is the specification. -/
theorem final (c : Dev nD) : (dats m (hO m) 0 c).arrAt 8 (cfgM m (hO m)).N = val m c :=
  (dats m (hO m) 0 c).arrAt_eq_of_cover 8 (val m c) (fun t _ => flushed_eq m c t) (cover m)

/-- THE KERNEL'S RUN with its result named: every weakly fair execution ends with the result array at the specification
    and the six arguments as launched. -/
theorem run : θ_run defs (onTc (τ := τ) (main (F := Ideal))) ⟨m, fun _ => 0, ρ⟩ fun r => ∀ c : Dev nD,
      r.2.mem ((c : Thread nD τ).loc main_v15) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run_main m ρ (hO m))
  exact ⟨((h c).1 8).trans (final m c),
    ((h c).2 main_arg0 (by decide : main_arg0 ∈ Pipeline.restRefs sig spec0)).trans (V_main_arg0 m c),
    ((h c).1 1).trans (((dats m (hO m) 0 c).arrAt_in 1 rfl _).trans ((A_eq m (hO m) c 1).trans (V_main_arg1 m c))),
    ((h c).1 0).trans (((dats m (hO m) 0 c).arrAt_in 0 rfl _).trans ((A_eq m (hO m) c 0).trans (V_main_arg2 m c))),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩

end Cert.KernelIdeal.Result

end
-- ==== Proof.RefValue.lean ====
/-
  The reference's result, stage by stage, is the specification at the clamped time.
  The time index: the converted time clamped to [0, 127] is not negative, so jax's wrap of a negative index is not
  taken, and the dynamic slice's own clamp to [0, 127] leaves it: the slice is time slice n of the coefficient array,
  rows and columns whole. Each gate contracts the joined row [x | v] of 1152 entries against a row of the transposed
  weight matrix; the sum over 1152 indices is the sum over the first 128 (which read x) plus the sum over the last 1024
  (which read v). The host's logistic, spelled 1 / (1 + exp(−a)) with the word 1.0, is the logistic function.
-/
import proofs.«105870_j36584531427600_1_alg».proof.Proof.RefStages
import proofs.«105870_j36584531427600_1_alg».proof.Proof.Spec
import proofs.«105870_j36584531427600_1_alg».proof.Proof.ClampWord
import Idealize.ShloMosaic.Lib.DynamicIndex
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open Cert.GruSpec (colX colH)

variable (x0 : (⟨S_, .f32⟩ : BufTy).Contents (Elt Ideal)) (x1 : (⟨S8192x1024, .f32⟩ : BufTy).Contents (Elt Ideal))
  (x2 : (⟨S128x8192x128, .f32⟩ : BufTy).Contents (Elt Ideal)) (x3 x4 x5 : (⟨S1024x1152, .f32⟩ : BufTy).Contents (Elt Ideal))

/-! ## The time index -/

/-- The converted time, clamped to [0, 127]. -/
abbrev word : BitVec 32 := Cert.ClampWord.clamp (FloatOps.fptosi (F := Ideal) (φ := .f32) 32 (x0 ix0))

/-- The time slice read: the clamped time as a number below 128. -/
def slice : Fin 128 := ⟨(word x0).toNat, Cert.ClampWord.clamp_toNat_lt _⟩

/-- The clipped index is the clamped word. -/
theorem v1_apply (i : S_.Idx) : val_main_v1 (F := Ideal) x0 i = word x0 := by
  rw [eq_ix0 i]; rfl

/-- It is not negative, so the wrap of a negative index leaves it. -/
theorem v4_apply (i : S_.Idx) : val_main_v4 (F := Ideal) x0 i = word x0 := by
  show Scalar.select (IntOp.cmpi .slt (val_main_v1 (F := Ideal) x0 i) 0#32) (val_main_v3 (F := Ideal) x0 i) (val_main_v1 (F := Ideal) x0 i) = _
  rw [v1_apply]
  have h : IntOp.cmpi .slt (word x0) 0#32 = 0#1 := by
    unfold IntOp.cmpi; rw [Cert.ClampWord.clamp_not_slt_zero]; rfl
  rw [h, select_zero]

/-- Time slice n, all rows, all columns, is a block inside the coefficient array. -/
theorem sliceFits : S128x8192x128.Slices ![(slice x0).val, 0, 0] S1x8192x128 :=
  ⟨rfl, fun a => by
    have := (slice x0).isLt
    fin_cases a <;> simp [S128x8192x128, S1x8192x128] <;> omega⟩

/-- The dynamic slice is the static one at (n, 0, 0): its starts are in range, so its own clamp leaves them. -/
theorem v11_eq : val_main_v11 (F := Ideal) x0 x2
    = extractStridedSlice S1x8192x128 ![(slice x0).val, 0, 0] x2 (sliceFits x0) := by
  unfold val_main_v11
  refine Host.dynamicSlice_eq_extractStridedSlice _ _ _ _ _ (sliceFits x0) (fun a => ?_)
  fin_cases a
  · show (val_main_v4 (F := Ideal) x0 (Shape.Idx.first h_S_)).toInt = ((slice x0).val : Int)
    rw [v4_apply]; exact Cert.ClampWord.clamp_toInt _
  · show (val_main_v7 (F := Ideal) (Shape.Idx.first h_S_)).toInt = ((0 : Nat) : Int)
    rfl
  · show (val_main_v10 (F := Ideal) (Shape.Idx.first h_S_)).toInt = ((0 : Nat) : Int)
    rfl

/-- Row p of x: entry (p, k) of the reshaped slice is entry (n, p, k) of the coefficient array. -/
theorem v12_apply (p : Fin 8192) (k : Fin 128) :
    val_main_v12 (F := Ideal) x0 x2 (ix2 p k) = x2 (ix3 (slice x0) p k) := by
  unfold val_main_v12
  rw [v11_eq]
  refine (shapeCast_1ab_ab_apply _ _ p k).trans ?_
  exact extractStridedSlice_apply _ _ _ _ _ (fun a => by
    match a with
    | ⟨0, _⟩ => exact (Nat.add_zero _).symm
    | ⟨1, _⟩ => exact (Nat.zero_add _).symm
    | ⟨2, _⟩ => exact (Nat.zero_add _).symm)

/-! ## A joined row against a transposed weight matrix -/

/-- The joined array [A | B] at one of its first 128 columns reads A. -/
theorem cat_left (A : S8192x128.Idx → EReal) (B : S8192x1024.Idx → EReal) (p : Fin 8192) (k : Fin 128) :
    concatenate S8192x1152 1 [⟨S8192x128, A⟩, ⟨S8192x1024, B⟩] concatenates_S8192x128_S8192x1024_S8192x1152_d1 (ix2 p (colX k))
      = A (ix2 p k) :=
  concatenate_pair_apply_left 1 A B _ (ix2 p (colX k)) rfl (ix2 p k) (fun b => by
    match b with
    | ⟨0, _⟩ => rfl
    | ⟨1, _⟩ => rfl)

/-- The joined array [A | B] at one of its last 1024 columns reads B. -/
theorem cat_right (A : S8192x128.Idx → EReal) (B : S8192x1024.Idx → EReal) (p : Fin 8192) (k : Fin 1024) :
    concatenate S8192x1152 1 [⟨S8192x128, A⟩, ⟨S8192x1024, B⟩] concatenates_S8192x128_S8192x1024_S8192x1152_d1 (ix2 p (colH k))
      = B (ix2 p k) :=
  concatenate_pair_apply_right 1 A B _ (ix2 p (colH k)) rfl rfl (ix2 p k) (fun b hb => by
    match b with
    | ⟨0, _⟩ => rfl
    | ⟨1, _⟩ => exact absurd rfl hb) (by show k.val + 128 = 128 + k.val; omega)

/-- THE SPLIT: the contraction of row p of [A | B] with row j of W (read through the transpose) is the sum over the
    first 128 columns, which read A, plus the sum over the last 1024, which read B. -/
theorem dot_cat (A : S8192x128.Idx → EReal) (B : S8192x1024.Idx → EReal) (W : S1024x1152.Idx → EReal) (p : Fin 8192) (j : Fin 1024) :
    ∑ k : Fin 1152, concatenate S8192x1152 1 [⟨S8192x128, A⟩, ⟨S8192x1024, B⟩] concatenates_S8192x128_S8192x1024_S8192x1152_d1 (lidx_main_v15 (ix2 p j) k)
        * W (idx_main_v14 (ridx_main_v15 (ix2 p j) k))
      = (∑ k : Fin 128, A (ix2 p k) * W (ix2 j (colX k))) + ∑ k : Fin 1024, B (ix2 p k) * W (ix2 j (colH k)) := by
  rw [Cert.GruSpec.sum_split]
  congr 1
  · refine Finset.sum_congr rfl fun k _ => ?_
    have e1 : lidx_main_v15 (ix2 p j) (colX k) = ix2 p (colX k) :=
      funext fun a => Fin.ext (by match a with | ⟨0, _⟩ => rfl | ⟨1, _⟩ => rfl)
    have e2 : idx_main_v14 (ridx_main_v15 (ix2 p j) (colX k)) = ix2 j (colX k) :=
      funext fun a => Fin.ext (by match a with | ⟨0, _⟩ => rfl | ⟨1, _⟩ => rfl)
    rw [e1, e2, cat_left]
  · refine Finset.sum_congr rfl fun k _ => ?_
    have e1 : lidx_main_v15 (ix2 p j) (colH k) = ix2 p (colH k) :=
      funext fun a => Fin.ext (by match a with | ⟨0, _⟩ => rfl | ⟨1, _⟩ => rfl)
    have e2 : idx_main_v14 (ridx_main_v15 (ix2 p j) (colH k)) = ix2 j (colH k) :=
      funext fun a => Fin.ext (by match a with | ⟨0, _⟩ => rfl | ⟨1, _⟩ => rfl)
    rw [e1, e2, cat_right]

/-- The host's logistic, spelled with the word 1.0, is the logistic function. -/
theorem host_logistic (a : EReal) :
    FloatOps.hostDivf (F := Ideal) (φ := .f32) (FloatOps.ofBits .f32 0x3F800000#32)
      (FloatOps.addf (FloatOps.ofBits .f32 0x3F800000#32) (FloatOps.hostUnary .exp (FloatOps.hostNegf a))) = Ideal.logistic a := by
  show Ideal.div (Ideal.ofBits .f32 0x3F800000#32) (Ideal.ofBits .f32 0x3F800000#32 + Ideal.exp (-a)) = _
  rw [Cert.GruSpec.one_word]
  rfl

/-! ## The gates -/

/-- The row of x and of h the reference reads at batch row p. -/
abbrev xr (p : Fin 8192) : Fin 128 → EReal := fun k => x2 (ix3 (slice x0) p k)
abbrev hr (p : Fin 8192) : Fin 1024 → EReal := fun k => x1 (ix2 p k)

/-- The reset gate's pre-activation. -/
theorem v15_apply (p : Fin 8192) (j : Fin 1024) :
    val_main_v15 (F := Ideal) x0 x1 x2 x3 (ix2 p j)
      = (∑ k : Fin 128, xr x0 x2 p k * x3 (ix2 j (colX k))) + ∑ k : Fin 1024, hr x1 p k * x3 (ix2 j (colH k)) := by
  rw [val_main_v15_apply]
  simp only [val_main_v14_apply]
  unfold val_main_v13
  rw [dot_cat]
  simp only [v12_apply]

/-- The update gate's pre-activation. -/
theorem v23_apply (p : Fin 8192) (j : Fin 1024) :
    val_main_v23 (F := Ideal) x0 x1 x2 x4 (ix2 p j)
      = (∑ k : Fin 128, xr x0 x2 p k * x4 (ix2 j (colX k))) + ∑ k : Fin 1024, hr x1 p k * x4 (ix2 j (colH k)) := by
  rw [val_main_v23_apply]
  simp only [val_main_v22_apply]
  unfold val_main_v13
  rw [dot_cat]
  simp only [v12_apply]

/-- The reset gate. -/
theorem v21_apply (p : Fin 8192) (j : Fin 1024) :
    val_main_v21 (F := Ideal) x0 x1 x2 x3 (ix2 p j)
      = Ideal.logistic ((∑ k : Fin 128, xr x0 x2 p k * x3 (ix2 j (colX k))) + ∑ k : Fin 1024, hr x1 p k * x3 (ix2 j (colH k))) := by
  rw [val_main_v21_apply, val_main_v20_apply, val_main_cst_13_apply, val_main_v19_apply, val_main_v18_apply, val_main_cst_apply,
    val_main_v17_apply, val_main_v16_apply, v15_apply]
  exact host_logistic _

/-- The update gate. -/
theorem v29_apply (p : Fin 8192) (j : Fin 1024) :
    val_main_v29 (F := Ideal) x0 x1 x2 x4 (ix2 p j)
      = Ideal.logistic ((∑ k : Fin 128, xr x0 x2 p k * x4 (ix2 j (colX k))) + ∑ k : Fin 1024, hr x1 p k * x4 (ix2 j (colH k))) := by
  rw [val_main_v29_apply, val_main_v28_apply, val_main_cst_15_apply, val_main_v27_apply, val_main_v26_apply, val_main_cst_14_apply,
    val_main_v25_apply, val_main_v24_apply, v23_apply]
  exact host_logistic _

/-- The candidate's pre-activation: the last 1024 columns meet r ⊙ h. -/
theorem v33_apply (p : Fin 8192) (j : Fin 1024) :
    val_main_v33 (F := Ideal) x0 x1 x2 x3 x5 (ix2 p j)
      = (∑ k : Fin 128, xr x0 x2 p k * x5 (ix2 j (colX k)))
        + ∑ k : Fin 1024, (Ideal.logistic ((∑ k' : Fin 128, xr x0 x2 p k' * x3 (ix2 k (colX k'))) + ∑ k' : Fin 1024, hr x1 p k' * x3 (ix2 k (colH k'))) * hr x1 p k)
            * x5 (ix2 j (colH k)) := by
  rw [val_main_v33_apply]
  simp only [val_main_v32_apply]
  unfold val_main_v31
  rw [dot_cat]
  simp only [v12_apply, val_main_v30_apply, v21_apply]
  rfl

/-- THE REFERENCE IS THE SPECIFICATION. -/
theorem ref_eq : val_main_v38 (F := Ideal) x0 x1 x2 x3 x4 x5 = Cert.GruSpec.G (slice x0) x1 x2 x3 x4 x5 := by
  funext i
  obtain ⟨p, j, rfl⟩ : ∃ (p : Fin 8192) (j : Fin 1024), i = ix2 p j := ⟨i 0, i 1, eq_ix2 i⟩
  rw [val_main_v38_apply, val_main_v36_apply, val_main_v37_apply, val_main_v35_apply, val_main_cst_16_apply, val_main_v34_apply,
    v29_apply, v33_apply]
  rfl

end Cert.ReferenceIdeal.RefValue

end
-- ==== Proof.lean ====
/-
  A gated-recurrent-unit derivative, dh = (1 − z) ⊙ (tanh(W_h [x | r ⊙ h]) − h) with r = σ(W_r [x | h]) and
  z = σ(W_z [x | h]), x the slice of a coefficient array at a time index clamped to [0, 127]: a Pallas kernel over 32
  batch tiles of 256 rows, against a plain jnp reference. On the extended reals the two compute one function
  (`Cert.GruSpec.G`, Proof/Spec.lean):
    * the kernel splits each weight matrix into its first 128 and last 1024 columns and adds the two products, the
      reference contracts the joined row of 1152 entries once; a finite sum over 128 + 1024 indices is the sum of the two
      partial sums — only the commutative-monoid laws of addition, which hold at the infinities too, so the finiteness
      precondition is never opened;
    * the kernel's logistic is by definition 1 / (1 + exp(−a)), which is what the reference spells out; both hyperbolic
      tangents are one function; the changes of float format are the identity;
    * both programs convert the time to a 32-bit integer and clamp it to [0, 127]; the kernel's first window reads that
      word from its prefetched table as a block index, the reference wraps it (not negative: no wrap) and passes it to a
      dynamic slice (in range: its own clamp leaves it). Because of the clamp the table-indexed block lies inside the
      coefficient array on every launch memory, so the frames hold with no condition on the time argument.
  The kernel's value is read off its frame run tile by tile (Proof/KernelValue.lean), the reference's off its run stage
  by stage (Proof/RefRun.lean, Proof/RefValue.lean); the idealization rewrote nothing, so `preserves` is `True`.
-/
import proofs.«105870_j36584531427600_1_alg».proof.Defs
import proofs.«105870_j36584531427600_1_alg».proof.Proof.Gen.Kernel
import proofs.«105870_j36584531427600_1_alg».proof.Proof.Gen.Kernel.Frame
import proofs.«105870_j36584531427600_1_alg».proof.Proof.Gen.KernelIdeal
import proofs.«105870_j36584531427600_1_alg».proof.Proof.Gen.KernelIdeal.Frame
import proofs.«105870_j36584531427600_1_alg».proof.Proof.Gen.ReferenceIdeal
import proofs.«105870_j36584531427600_1_alg».proof.Proof.RefStages
import proofs.«105870_j36584531427600_1_alg».proof.Proof.RefRun
import proofs.«105870_j36584531427600_1_alg».proof.Proof.Gen.Pre_finite_inputs
import proofs.«105870_j36584531427600_1_alg».proof.Proof.TableKernel
import proofs.«105870_j36584531427600_1_alg».proof.Proof.TableKernelIdeal
import proofs.«105870_j36584531427600_1_alg».proof.Proof.KernelValue
import proofs.«105870_j36584531427600_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the clamped table word keeps the first window inside its array. -/
theorem frame_kernel : Cert.frame_Kernel := fun m ρ _ => Cert.Kernel.Gen.frame m ρ (Cert.Kernel.Table.ok m)

/-- The same of the idealized kernel. -/
theorem frame_kernelIdeal : Cert.frame_KernelIdeal := fun m ρ _ => Cert.KernelIdeal.Gen.frame m ρ (Cert.KernelIdeal.Table.ok m)

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.StageRun.run (F := Ideal) m ρ)

/-- The idealization rewrote no operation. -/
theorem preserves : Cert.preserves_Kernel_KernelIdeal := trivial

/-- From memories agreeing on the six arguments both programs end with the specification at the clamped time in their
    result arrays: the kernel by its tiles, the reference by its stages, the two time slices one number. -/
theorem algebraic : Cert.algebraic_KernelIdeal_ReferenceIdeal := by
  intro m ρ m' ρ' _ hagree
  refine ⟨fun c => Cert.KernelIdeal.Result.val m c, Cert.KernelIdeal.Result.run m ρ, ?_⟩
  refine (θ_run Cert.ReferenceIdeal.defs _ _).mono (fun _ h c => ⟨(h c).1.trans ?_, (h c).2⟩)
    (Cert.ReferenceIdeal.StageRun.run (F := Ideal) m' ρ')
  obtain rfl : c = 0 := Subsingleton.elim _ _
  rw [Cert.ReferenceIdeal.RefValue.ref_eq, (hagree 0).1, (hagree 0).2.1, (hagree 0).2.2.1,
    (hagree 0).2.2.2.1, (hagree 0).2.2.2.2.1, (hagree 0).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
